-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64 : Shape := ⟨1, ![64]⟩
abbrev S2112x32 : Shape := ⟨2, ![2112, 32]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64 : S_.BroadcastsInDim S64 (![] : Fin 0 → Fin S64.rank)
  reducesTo_S64_S_d0 : S64.ReducesTo [0] S_
  bcast_S_S2112x32 : S_.BroadcastsInDim S2112x32 (![] : Fin 0 → Fin S2112x32.rank)
  reducesTo_S2112x32_S_d0_1 : S2112x32.ReducesTo [0, 1] S_

variable [Facts]

def fn_part1 {F : FTy → Type} [FloatOps F] (main_v13 : IVec S_ 1) (main_v16 : IVec S2112x32 1) : IVec S_ 1 :=
  let main_c_5 : IVec S_ 1 := constantI S_ 1 1#1
  let main_v17 : IVec S_ 1 := (fun x v => Host.reduce IntOp.andi x v reducesTo_S2112x32_S_d0_1 h_S_) main_v16 main_c_5
  let main_v18 : IVec S_ 1 := andi main_v13 main_v17
  main_v18

def fn {F : FTy → Type} [FloatOps F] (main_arg0 : FVec F S16384x64 .f32) (main_arg1 : FVec F S64 .f32) (main_arg2 : FVec F S64 .f32) (main_arg3 : FVec F S2112x32 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2112x32 .f32 := Host.absf main_arg3
  let main_cst_4 : FVec F S_ .f32 := constant S_ .f32 0x7F800000#32
  let main_v15 : FVec F S2112x32 .f32 := broadcastInDim S2112x32 ![] bcast_S_S2112x32 main_cst_4
  let main_v16 : IVec S2112x32 1 := cmpf .olt main_v14 main_v15
  fn_part1 (F := F) main_v13 main_v16
-- ==== Kernel.lean ====
abbrev S16384x64 : Shape := ⟨2, ![16384, 64]⟩
abbrev S64 : Shape := ⟨1, ![64]⟩
abbrev S2112x32 : Shape := ⟨2, ![2112, 32]⟩
abbrev S_ : Shape := ⟨0, ![]⟩
abbrev S1x64 : Shape := ⟨2, ![1, 64]⟩
abbrev S33x64x32 : Shape := ⟨3, ![33, 64, 32]⟩
abbrev S16384x2048 : Shape := ⟨2, ![16384, 2048]⟩
abbrev S512x64 : Shape := ⟨2, ![512, 64]⟩
abbrev S512x2048 : Shape := ⟨2, ![512, 2048]⟩
abbrev S512x64x32 : Shape := ⟨3, ![512, 64, 32]⟩
abbrev S1x64x32 : Shape := ⟨3, ![1, 64, 32]⟩
abbrev S64x32 : Shape := ⟨2, ![64, 32]⟩
abbrev S512x64x1 : Shape := ⟨3, ![512, 64, 1]⟩
abbrev S16384x64x32 : Shape := ⟨3, ![16384, 64, 32]⟩

abbrev nBuf : Space → Nat
  | .hbm => 28
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S2112x32, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S33x64x32, .f32⟩
  | .hbm, ⟨26, _⟩ => ⟨S16384x2048, .f32⟩
  | .hbm, ⟨27, _⟩ => ⟨S16384x64x32, .f32⟩
  | .local _ .vmem, ⟨0, _⟩ => ⟨S512x64, .f32⟩
  | .local _ .vmem, ⟨1, _⟩ => ⟨S512x64, .f32⟩
  | .local _ .vmem, ⟨2, _⟩ => ⟨S64, .f32⟩
  | .local _ .vmem, ⟨3, _⟩ => ⟨S64, .f32⟩
  | .local _ .vmem, ⟨4, _⟩ => ⟨S33x64x32, .f32⟩
  | .local _ .vmem, ⟨5, _⟩ => ⟨S512x2048, .f32⟩
  | .local _ .vmem, ⟨6, _⟩ => ⟨S512x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S33x64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S2112x32_S33x64x32 : S2112x32.ShapeCasts S33x64x32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S512x64 : S1x64.Broadcasts S512x64
  inb_S33x64x32_S1x64x32_0_0_0 : ∀ a, (![0, 0, 0] : Fin 3 → Nat) a + S1x64x32.size a ≤ S33x64x32.size a
  h_S1x64x32 : 0 < S1x64x32.numel
  shapeCasts_S1x64x32_S64x32 : S1x64x32.ShapeCasts S64x32
  shapeCasts_S512x64_S512x64x1 : S512x64.ShapeCasts S512x64x1
  shapeCasts_S64x32_S1x64x32 : S64x32.ShapeCasts S1x64x32
  broadcasts_S512x64x1_S512x64x32 : S512x64x1.Broadcasts S512x64x32
  broadcasts_S1x64x32_S512x64x32 : S1x64x32.Broadcasts S512x64x32
  inb_S33x64x32_S1x64x32_1_0_0 : ∀ a, (![1, 0, 0] : Fin 3 → Nat) a + S1x64x32.size a ≤ S33x64x32.size a
  inb_S33x64x32_S1x64x32_2_0_0 : ∀ a, (![2, 0, 0] : Fin 3 → Nat) a + S1x64x32.size a ≤ S33x64x32.size a
  inb_S33x64x32_S1x64x32_3_0_0 : ∀ a, (![3, 0, 0] : Fin 3 → Nat) a + S1x64x32.size a ≤ S33x64x32.size a
  inb_S33x64x32_S1x64x32_4_0_0 : ∀ a, (![4, 0, 0] : Fin 3 → Nat) a + S1x64x32.size a ≤ S33x64x32.size a
  inb_S33x64x32_S1x64x32_5_0_0 : ∀ a, (![5, 0, 0] : Fin 3 → Nat) a + S1x64x32.size a ≤ S33x64x32.size a
  inb_S33x64x32_S1x64x32_6_0_0 : ∀ a, (![6, 0, 0] : Fin 3 → Nat) a + S1x64x32.size a ≤ S33x64x32.size a
  inb_S33x64x32_S1x64x32_7_0_0 : ∀ a, (![7, 0, 0] : Fin 3 → Nat) a + S1x64x32.size a ≤ S33x64x32.size a
  inb_S33x64x32_S1x64x32_8_0_0 : ∀ a, (![8, 0, 0] : Fin 3 → Nat) a + S1x64x32.size a ≤ S33x64x32.size a
  inb_S33x64x32_S1x64x32_9_0_0 : ∀ a, (![9, 0, 0] : Fin 3 → Nat) a + S1x64x32.size a ≤ S33x64x32.size a
  inb_S33x64x32_S1x64x32_10_0_0 : ∀ a, (![10, 0, 0] : Fin 3 → Nat) a + S1x64x32.size a ≤ S33x64x32.size a
  inb_S33x64x32_S1x64x32_11_0_0 : ∀ a, (![11, 0, 0] : Fin 3 → Nat) a + S1x64x32.size a ≤ S33x64x32.size a
  inb_S33x64x32_S1x64x32_12_0_0 : ∀ a, (![12, 0, 0] : Fin 3 → Nat) a + S1x64x32.size a ≤ S33x64x32.size a
  inb_S33x64x32_S1x64x32_13_0_0 : ∀ a, (![13, 0, 0] : Fin 3 → Nat) a + S1x64x32.size a ≤ S33x64x32.size a
  inb_S33x64x32_S1x64x32_14_0_0 : ∀ a, (![14, 0, 0] : Fin 3 → Nat) a + S1x64x32.size a ≤ S33x64x32.size a
  inb_S33x64x32_S1x64x32_15_0_0 : ∀ a, (![15, 0, 0] : Fin 3 → Nat) a + S1x64x32.size a ≤ S33x64x32.size a
  inb_S33x64x32_S1x64x32_16_0_0 : ∀ a, (![16, 0, 0] : Fin 3 → Nat) a + S1x64x32.size a ≤ S33x64x32.size a
  inb_S33x64x32_S1x64x32_17_0_0 : ∀ a, (![17, 0, 0] : Fin 3 → Nat) a + S1x64x32.size a ≤ S33x64x32.size a
  inb_S33x64x32_S1x64x32_18_0_0 : ∀ a, (![18, 0, 0] : Fin 3 → Nat) a + S1x64x32.size a ≤ S33x64x32.size a
  inb_S33x64x32_S1x64x32_19_0_0 : ∀ a, (![19, 0, 0] : Fin 3 → Nat) a + S1x64x32.size a ≤ S33x64x32.size a
  inb_S33x64x32_S1x64x32_20_0_0 : ∀ a, (![20, 0, 0] : Fin 3 → Nat) a + S1x64x32.size a ≤ S33x64x32.size a
  inb_S33x64x32_S1x64x32_21_0_0 : ∀ a, (![21, 0, 0] : Fin 3 → Nat) a + S1x64x32.size a ≤ S33x64x32.size a
  inb_S33x64x32_S1x64x32_22_0_0 : ∀ a, (![22, 0, 0] : Fin 3 → Nat) a + S1x64x32.size a ≤ S33x64x32.size a
  inb_S33x64x32_S1x64x32_23_0_0 : ∀ a, (![23, 0, 0] : Fin 3 → Nat) a + S1x64x32.size a ≤ S33x64x32.size a
  inb_S33x64x32_S1x64x32_24_0_0 : ∀ a, (![24, 0, 0] : Fin 3 → Nat) a + S1x64x32.size a ≤ S33x64x32.size a
  inb_S33x64x32_S1x64x32_25_0_0 : ∀ a, (![25, 0, 0] : Fin 3 → Nat) a + S1x64x32.size a ≤ S33x64x32.size a
  inb_S33x64x32_S1x64x32_26_0_0 : ∀ a, (![26, 0, 0] : Fin 3 → Nat) a + S1x64x32.size a ≤ S33x64x32.size a
  inb_S33x64x32_S1x64x32_27_0_0 : ∀ a, (![27, 0, 0] : Fin 3 → Nat) a + S1x64x32.size a ≤ S33x64x32.size a
  inb_S33x64x32_S1x64x32_28_0_0 : ∀ a, (![28, 0, 0] : Fin 3 → Nat) a + S1x64x32.size a ≤ S33x64x32.size a
  inb_S33x64x32_S1x64x32_29_0_0 : ∀ a, (![29, 0, 0] : Fin 3 → Nat) a + S1x64x32.size a ≤ S33x64x32.size a
  inb_S33x64x32_S1x64x32_30_0_0 : ∀ a, (![30, 0, 0] : Fin 3 → Nat) a + S1x64x32.size a ≤ S33x64x32.size a
  inb_S33x64x32_S1x64x32_31_0_0 : ∀ a, (![31, 0, 0] : Fin 3 → Nat) a + S1x64x32.size a ≤ S33x64x32.size a
  inb_S33x64x32_S1x64x32_32_0_0 : ∀ a, (![32, 0, 0] : Fin 3 → Nat) a + S1x64x32.size a ≤ S33x64x32.size a
  shapeCasts_S512x64x32_S512x2048 : S512x64x32.ShapeCasts S512x2048
  inb_S512x2048_S512x2048_0_0 : ∀ a, (![0, 0] : Fin 2 → Nat) a + S512x2048.size a ≤ S512x2048.size a
  h_S512x2048 : 0 < S512x2048.numel
  shapeCasts_S16384x2048_S16384x64x32 : S16384x2048.ShapeCasts S16384x64x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S33x64x32.size a ≤ S33x64x32.size a
  hwx0_3 : ∀ i : grid0.Coords, EltTy.bits .f32 = 32 ∨ (Rect.block (s := S33x64x32) S33x64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S33x64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S64 : Shape := ⟨1, ![64]⟩
abbrev S2112x32 : Shape := ⟨2, ![2112, 32]⟩
abbrev S_ : Shape := ⟨0, ![]⟩
abbrev S1x64 : Shape := ⟨2, ![1, 64]⟩
abbrev S16384x64x1 : Shape := ⟨3, ![16384, 64, 1]⟩
abbrev S16384x64x32 : Shape := ⟨3, ![16384, 64, 32]⟩

abbrev nBuf : Space → Nat
  | .hbm => 114
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S2112x32, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S16384x64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S64, .i32⟩
  | .hbm, ⟨44, _⟩ => ⟨S1x64, .i32⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S16384x64, .i32⟩
  | .hbm, ⟨50, _⟩ => ⟨S_, .i32⟩
  | .hbm, ⟨51, _⟩ => ⟨S16384x64, .i32⟩
  | .hbm, ⟨52, _⟩ => ⟨S16384x64, .i32⟩
  | .hbm, ⟨53, _⟩ => ⟨S_, .i32⟩
  | .hbm, ⟨54, _⟩ => ⟨S16384x64, .i32⟩
  | .hbm, ⟨55, _⟩ => ⟨S16384x64, .i32⟩
  | .hbm, ⟨56, _⟩ => ⟨S16384x64, .i32⟩
  | .hbm, ⟨57, _⟩ => ⟨S16384x64, .i32⟩
  | .hbm, ⟨58, _⟩ => ⟨S_, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S16384x64, .f32⟩
  | .hbm, ⟨68, _⟩ => ⟨S16384x64, .i32⟩
  | .hbm, ⟨69, _⟩ => ⟨S_, .i32⟩
  | .hbm, ⟨70, _⟩ => ⟨S16384x64, .i32⟩
  | .hbm, ⟨71, _⟩ => ⟨S16384x64, .i32⟩
  | .hbm, ⟨72, _⟩ => ⟨S_, .i32⟩
  | .hbm, ⟨73, _⟩ => ⟨S16384x64, .i32⟩
  | .hbm, ⟨74, _⟩ => ⟨S16384x64, .i32⟩
  | .hbm, ⟨75, _⟩ => ⟨S16384x64, .i32⟩
  | .hbm, ⟨76, _⟩ => ⟨S16384x64, .i32⟩
  | .hbm, ⟨77, _⟩ => ⟨S_, .f32⟩
  | .hbm, ⟨78, _⟩ => ⟨S16384x64, .f32⟩
  | .hbm, ⟨79, _⟩ => ⟨S16384x64, .f32⟩
  | .hbm, ⟨80, _⟩ => ⟨S_, .i32⟩
  | .hbm, ⟨81, _⟩ => ⟨S16384x64, .i32⟩
  | .hbm, ⟨82, _⟩ => ⟨S16384x64, .i1⟩
  | .hbm, ⟨83, _⟩ => ⟨S_, .i32⟩
  | .hbm, ⟨84, _⟩ => ⟨S16384x64, .i32⟩
  | .hbm, ⟨85, _⟩ => ⟨S16384x64, .i32⟩
  | .hbm, ⟨86, _⟩ => ⟨S16384x64, .i32⟩
  | .hbm, ⟨87, _⟩ => ⟨S16384x64x1, .i32⟩
  | .hbm, ⟨88, _⟩ => ⟨S16384x64x32, .f32⟩
  | .hbm, ⟨89, _⟩ => ⟨S_, .i32⟩
  | .hbm, ⟨90, _⟩ => ⟨S16384x64, .i32⟩
  | .hbm, ⟨91, _⟩ => ⟨S16384x64, .i1⟩
  | .hbm, ⟨92, _⟩ => ⟨S_, .i32⟩
  | .hbm, ⟨93, _⟩ => ⟨S16384x64, .i32⟩
  | .hbm, ⟨94, _⟩ => ⟨S16384x64, .i32⟩
  | .hbm, ⟨95, _⟩ => ⟨S16384x64, .i32⟩
  | .hbm, ⟨96, _⟩ => ⟨S16384x64x1, .i32⟩
  | .hbm, ⟨97, _⟩ => ⟨S16384x64x32, .f32⟩
  | .hbm, ⟨98, _⟩ => ⟨S16384x64x1, .f32⟩
  | .hbm, ⟨99, _⟩ => ⟨S16384x64x1, .f32⟩
  | .hbm, ⟨100, _⟩ => ⟨S16384x64x1, .f32⟩
  | .hbm, ⟨101, _⟩ => ⟨S_, .f32⟩
  | .hbm, ⟨102, _⟩ => ⟨S16384x64x1, .f32⟩
  | .hbm, ⟨103, _⟩ => ⟨S16384x64x1, .f32⟩
  | .hbm, ⟨104, _⟩ => ⟨S16384x64x32, .f32⟩
  | .hbm, ⟨105, _⟩ => ⟨S16384x64x32, .f32⟩
  | .hbm, ⟨106, _⟩ => ⟨S16384x64x1, .f32⟩
  | .hbm, ⟨107, _⟩ => ⟨S16384x64x1, .f32⟩
  | .hbm, ⟨108, _⟩ => ⟨S_, .f32⟩
  | .hbm, ⟨109, _⟩ => ⟨S16384x64x1, .f32⟩
  | .hbm, ⟨110, _⟩ => ⟨S16384x64x1, .f32⟩
  | .hbm, ⟨111, _⟩ => ⟨S16384x64x32, .f32⟩
  | .hbm, ⟨112, _⟩ => ⟨S16384x64x32, .f32⟩
  | .hbm, ⟨113, _⟩ => ⟨S16384x64x32, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x32_0_1_2 : S16384x64x1.BroadcastsInDim S16384x64x32 (![0, 1, 2] : Fin 3 → Fin S16384x64x32.rank)
  gather_S2112x32_S16384x64x1_S16384x64x32_2_0_n_n_0_2_132_wf : GatherDims.WF S2112x32 S16384x64x1 S16384x64x32 [2] [0] [] [0] [] 2 ![1, 32]

variable [Facts₀]

def gather_S2112x32_S16384x64x1_S16384x64x32_2_0_n_n_0_2_132 : GatherDims S2112x32 S16384x64x1 S16384x64x32 where
  offsetDims := [2]
  collapsedSliceDims := [0]
  operandBatchingDims := []
  startIndicesBatchingDims := []
  startIndexMap := [0]
  indexVectorDim := 2
  sliceSizes := ![1, 32]
  wf := gather_S2112x32_S16384x64x1_S16384x64x32_2_0_n_n_0_2_132_wf

class Facts : Prop extends Facts₀ where

variable [Facts]
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Finite.lean ====
/-
  Finite inputs are real numbers, and so are the column statistics of x.

  The precondition says that every entry of x, of the weight, of the bias and of the table has absolute value below
  positive infinity; on the extended reals that is: every entry is a real number. Then each column's mean, a finite sum of
  reals divided by 16384, is real; the mean of the squared deviations is a nonnegative real; adding the positive
  stabilising constant makes it positive, and the reciprocal square root of a positive real is a positive real.
-/
import proofs.«154688_j61907658605068_1_alg».proof.Pre_finite_inputs
import proofs.«154688_j61907658605068_1_alg».proof.Proof.Gen.ReferenceIdeal.Read
import proofs.«154688_j61907658605068_1_alg».proof.Proof.LibFiniteOps
import Idealize.ShloMosaic.Lib.Affine
import Idealize.ShloMosaic.Lib.ReduceAll
import Idealize.ShloMosaic.Lib.ValueIdx

noncomputable section

namespace Cert.Finite

open Idealize.ShloMosaic Idealize.ShloMosaic.FiniteOps Idealize.ShloMosaic.ValueIdx

section Pre
variable [Cert.Pre_finite_inputs.Facts]

/-- The precondition, true of four arrays, makes x, the weight and the bias all real. -/
theorem allReal_of_pre (x : FVec Ideal Cert.Pre_finite_inputs.S16384x64 .f32) (w b : FVec Ideal Cert.Pre_finite_inputs.S64 .f32)
    (T : FVec Ideal Cert.Pre_finite_inputs.S2112x32 .f32)
    (h : Cert.Pre_finite_inputs.fn (F := Ideal) x w b T = fun _ => 1#1) : AllReal x ∧ AllReal w ∧ AllReal b := by
  have h0 := congrFun h ix0
  dsimp only [Cert.Pre_finite_inputs.fn, Cert.Pre_finite_inputs.fn_part1] at h0
  obtain ⟨h123, -⟩ := IntOp.andi_eq_one.1 h0
  obtain ⟨h12, h3⟩ := IntOp.andi_eq_one.1 h123
  obtain ⟨h1, h2⟩ := IntOp.andi_eq_one.1 h12
  exact ⟨allReal_of_all_abs_lt_inf x _ _ _ ix0 h1, allReal_of_all_abs_lt_inf w _ _ _ ix0 h2,
    allReal_of_all_abs_lt_inf b _ _ _ ix0 h3⟩

end Pre

/-- The word of 16384.0 denotes a positive real. -/
theorem isPos_ofBits_16384_f32 : IsPos (Ideal.ofBits .f32 0x46800000#32) := by
  unfold IsPos
  simp [Ideal.ofBits, Ideal.ieee]
  exact ⟨8388608 * (2 ^ 9)⁻¹, by positivity, (EReal.coe_mul _ _).symm⟩

open Cert.ReferenceIdeal Cert.ReferenceIdeal.Gen Cert.ReferenceIdeal.Read

/-- The column means of a real x are real. -/
theorem mean_real (x : FVec Ideal S16384x64 .f32) (hx : AllReal x) : AllReal (val_main_v2 (F := Ideal) x) := by
  unfold val_main_v2 val_main_v0 val_main_v1 val_main_cst val_main_cst_0
  exact (AllReal.hostReduceAdd hx (allReal_constant isReal_ofBits_zero_f32) _ _).hostDivf_pos
    ((allPos_constant isPos_ofBits_16384_f32).broadcastInDim _ _)

/-- The columns' reciprocal standard deviations are positive reals. -/
theorem rstd_pos (x : FVec Ideal S16384x64 .f32) (hx : AllReal x) : AllPos (val_main_v15 (F := Ideal) x) := by
  have hm := mean_real x hx
  have hd : AllReal (val_main_v5 (F := Ideal) x) := by
    unfold val_main_v5 val_main_v4 val_main_v3
    exact hx.subf ((hm.broadcastInDim _ _).broadcastInDim _ _)
  unfold val_main_v15 val_main_v14 val_main_v13 val_main_cst_3 val_main_v9 val_main_v8 val_main_cst_2 val_main_v7 val_main_cst_1 val_main_v6
  exact (((AllNonneg.hostReduceAdd hd.mulf_self (allNonneg_constant isNonneg_ofBits_zero_f32) _ _).hostDivf_pos
    ((allPos_constant isPos_ofBits_16384_f32).broadcastInDim _ _)).addf_pos
      ((allPos_constant isPos_ofBits_eps_f32).broadcastInDim _ _)).hostRsqrt

end Cert.Finite

end
-- ==== Proof.BinScalar.lean ====
/-
  The scalar mathematics of the binned embedding lookup.

  A number z is squashed by tanh, clipped into [-c, c] with c = 1 - 168 / 2^24 < 1, and scaled by sixteen; the
  result s = 16 τ lies strictly between -16 and 16, so its floor k is one of -16, …, 15. The fractional part
  φ = s - k lies in [0, 1). The embedding of z is the blend φ · T[k + 17] + (1 - φ) · T[k + 16] of two
  neighbouring rows of a table of 33 bins (rows counted from zero, so k + 16 is one of 0, …, 31).

  Two programs compute that blend. One walks over all 33 bins and adds weight(b) · T[b], the weight of bin b being
  1 - φ when b is the low bin, φ when it is the high bin and zero otherwise; only two summands survive. The other
  looks the two rows up by their row numbers and forms T[hi] · 16 (τ - k/16) + T[lo] · 16 ((k + 1)/16 - τ), which is
  the same blend because 16 (τ - k/16) = φ and 16 ((k + 1)/16 - τ) = 1 - φ over the reals. Neither equality needs the
  table's entries to be finite: only commutativity of the sum and the product, and 0 · x = 0, which hold on the extended reals.
-/
import Idealize.ShloMosaic.PureOps.Ideal
import Idealize.ShloMosaic.PureOps.Ideal.Laws
import Idealize.ShloMosaic.Lib.ValueIdx

noncomputable section

namespace Cert.BinEmbed

open Idealize.ShloMosaic Idealize.ShloMosaic.ValueIdx

/-! ## The float words that occur, as numbers -/

private theorem w_c : Ideal.ofBits .f32 0x3F7FFF58#32 = ((16777048 / 16777216 : ℝ) : EReal) := by
  simp [Ideal.ofBits, Ideal.ieee, -EReal.coe_mul]
  norm_num

private theorem w_nc : Ideal.ofBits .f32 0xBF7FFF58#32 = ((-(16777048 / 16777216) : ℝ) : EReal) := by
  simp [Ideal.ofBits, Ideal.ieee, -EReal.coe_mul]
  norm_num

private theorem w_16 : Ideal.ofBits .f32 0x41800000#32 = ((16 : ℝ) : EReal) := by
  simp [Ideal.ofBits, Ideal.ieee, -EReal.coe_mul]
  norm_num

private theorem w_1 : Ideal.ofBits .f32 0x3F800000#32 = ((1 : ℝ) : EReal) := by
  simp [Ideal.ofBits, Ideal.ieee, -EReal.coe_mul]
  norm_num

/-- The hyperbolic tangent of an extended real is a real number: -1 and 1 at the two infinities. -/
private theorem tanh_real (z : EReal) : ∃ t : ℝ, Ideal.tanh z = ((t : ℝ) : EReal) := by
  induction z using EReal.rec with
  | bot => exact ⟨-1, by simp⟩
  | coe r => exact ⟨Real.tanh r, rfl⟩
  | top => exact ⟨1, by simp⟩

/-! ## The clipped squashing and its bin -/

/-- tanh z clipped into [-c, c], c = 1 - 168 / 2^24 (the two bounds are one float word and its negation). -/
def tclip (z : EReal) : EReal :=
  min (Ideal.ofBits .f32 0x3F7FFF58#32) (max (Ideal.ofBits .f32 0xBF7FFF58#32) (Ideal.tanh z))

/-- The clipped value as a real number (it always is one: the bounds are real). -/
def tau (z : EReal) : ℝ := (tclip z).toReal

/-- Clipping a real between two real bounds gives a real: the coercion is monotone, so it commutes with max and min. -/
private theorem tclip_real (z : EReal) :
    ∃ t : ℝ, tclip z = ((min (16777048 / 16777216) (max (-(16777048 / 16777216)) t) : ℝ) : EReal) := by
  obtain ⟨t, ht⟩ := tanh_real z
  refine ⟨t, ?_⟩
  rw [tclip, w_c, w_nc, ht, EReal.coe_strictMono.monotone.map_min, EReal.coe_strictMono.monotone.map_max]

theorem tclip_eq (z : EReal) : tclip z = ((tau z : ℝ) : EReal) := by
  obtain ⟨t, ht⟩ := tclip_real z
  rw [tau, ht, EReal.toReal_coe]

theorem tau_bounds (z : EReal) : -(16777048 / 16777216 : ℝ) ≤ tau z ∧ tau z ≤ (16777048 / 16777216 : ℝ) := by
  obtain ⟨t, ht⟩ := tclip_real z
  rw [tau, ht, EReal.toReal_coe]
  exact ⟨le_min (by norm_num) (le_max_left _ _), min_le_left _ _⟩

/-- The floor of sixteen times the clipped value. -/
def kfl (z : EReal) : ℤ := ⌊tau z * 16⌋

theorem kfl_bounds (z : EReal) : -16 ≤ kfl z ∧ kfl z ≤ 15 := by
  obtain ⟨h1, h2⟩ := tau_bounds z
  constructor
  · rw [kfl, Int.le_floor]
    push_cast
    linarith
  · have h : kfl z < 16 := by
      rw [kfl, Int.floor_lt]
      push_cast
      linarith
    omega

/-- The low bin, counted from zero. -/
def nlo (z : EReal) : ℕ := (kfl z + 16).toNat

theorem nlo_lt (z : EReal) : nlo z < 32 := by
  have := kfl_bounds z
  unfold nlo
  omega

theorem nlo_cast (z : EReal) : ((nlo z : ℕ) : ℤ) = kfl z + 16 := by
  have := kfl_bounds z
  unfold nlo
  omega

/-- The fractional part of sixteen times the clipped value. -/
def phi (z : EReal) : ℝ := tau z * 16 - (kfl z : ℝ)

/-- The blend of the low and the high row's entries. -/
def blend (z : EReal) (lo hi : EReal) : EReal := hi * ((phi z : ℝ) : EReal) + lo * (((1 - phi z : ℝ)) : EReal)

/-! ## The quantities as the programs spell them -/

/-- Sixteen times the clipped value, with sixteen as its float word. -/
def scaled (z : EReal) : EReal := tclip z * Ideal.ofBits .f32 0x41800000#32

theorem scaled_eq (z : EReal) : scaled z = ((tau z * 16 : ℝ) : EReal) := by
  rw [scaled, tclip_eq, w_16, ← EReal.coe_mul]

theorem floor_scaled (z : EReal) : Ideal.liftRound Int.floor (scaled z) = (((kfl z : ℤ) : ℝ) : EReal) := by
  rw [scaled_eq, Ideal.liftRound_coe]
  rfl

theorem floor_scaled_succ (z : EReal) :
    Ideal.liftRound Int.floor (scaled z + Ideal.ofBits .f32 0x3F800000#32) = ((((kfl z + 1 : ℤ)) : ℝ) : EReal) := by
  rw [scaled_eq, w_1, ← EReal.coe_add, Ideal.liftRound_coe, Int.floor_add_one]
  rfl

/-- The floor converted to a 32-bit integer: the low bin's signed number k. -/
def lowW (z : EReal) : BitVec 32 := Ideal.fptosi 32 (Ideal.liftRound Int.floor (scaled z))

/-- The floor of s + 1 converted likewise: k + 1. -/
def highW (z : EReal) : BitVec 32 := Ideal.fptosi 32 (Ideal.liftRound Int.floor (scaled z + Ideal.ofBits .f32 0x3F800000#32))

/-- An integer between -16 and 16, as a real, converts to the 32-bit word of that integer: floor and ceiling of an
    integer are the integer, and the clamp to the 32-bit range does nothing. -/
private theorem fptosi_int (k : ℤ) (h1 : -16 ≤ k) (h2 : k ≤ 16) :
    Ideal.fptosi 32 ((((k : ℤ) : ℝ)) : EReal) = BitVec.ofInt 32 k := by
  rw [Ideal.fptosi, Ideal.toIntClamped_coe]
  simp only [Int.floor_intCast, Int.ceil_intCast, ite_self]
  congr 1
  rw [min_eq_right (by norm_num; omega), max_eq_right (by norm_num; omega)]

private theorem lowW_eq (z : EReal) : lowW z = BitVec.ofInt 32 (kfl z) := by
  have := kfl_bounds z
  rw [lowW, floor_scaled, fptosi_int _ (by omega) (by omega)]

private theorem highW_eq (z : EReal) : highW z = BitVec.ofInt 32 (kfl z + 1) := by
  have := kfl_bounds z
  rw [highW, floor_scaled_succ, fptosi_int _ (by omega) (by omega)]

theorem lowW_toInt (z : EReal) : (lowW z).toInt = kfl z := by
  have := kfl_bounds z
  rw [lowW_eq, BitVec.toInt_ofInt_eq_self (by norm_num) (by norm_num; omega) (by norm_num; omega)]

theorem lowW_add16 (z : EReal) : lowW z + 16#32 = BitVec.ofNat 32 (nlo z) := by
  have h : BitVec.ofNat 32 (nlo z) = BitVec.ofInt 32 (kfl z + 16) :=
    (BitVec.ofInt_natCast 32 (nlo z)).symm.trans (congrArg _ (nlo_cast z))
  have h16 : (16#32 : BitVec 32) = BitVec.ofInt 32 16 := rfl
  rw [h, lowW_eq, h16, BitVec.ofInt_add (kfl z) 16]

theorem lowW_add17 (z : EReal) : lowW z + 16#32 + 1#32 = BitVec.ofNat 32 (nlo z + 1) := by
  rw [lowW_add16, BitVec.ofNat_add]

theorem highW_add16 (z : EReal) : highW z + 16#32 = BitVec.ofNat 32 (nlo z + 1) := by
  have hc : ((nlo z + 1 : ℕ) : ℤ) = kfl z + 1 + 16 := by
    have := nlo_cast z
    omega
  have h : BitVec.ofNat 32 (nlo z + 1) = BitVec.ofInt 32 (kfl z + 1 + 16) :=
    (BitVec.ofInt_natCast 32 (nlo z + 1)).symm.trans (congrArg _ hc)
  have h16 : (16#32 : BitVec 32) = BitVec.ofInt 32 16 := rfl
  rw [h, highW_eq, h16, BitVec.ofInt_add (kfl z + 1) 16]

/-- The fractional part as the bin-walking program forms it: s minus the integer read back as a float. -/
def fracE (z : EReal) : EReal := scaled z - ((((lowW z).toInt : ℤ) : ℝ) : EReal)

theorem fracE_eq (z : EReal) : fracE z = ((phi z : ℝ) : EReal) := by
  rw [fracE, scaled_eq, lowW_toInt, ← EReal.coe_sub]
  rfl

/-! ## The walk over all bins -/

/-- The weight of bin b: u if b is the low bin plus v if b is the high bin (each zero otherwise). -/
def binWeight (bl bh : BitVec 32) (u v : EReal) (b : BitVec 32) : EReal :=
  Scalar.select (IntOp.cmpi .eq bl b) u (Ideal.ofBits .f32 0x00000000#32)
    + Scalar.select (IntOp.cmpi .eq bh b) v (Ideal.ofBits .f32 0x00000000#32)

/-- The sum over the 33 bins, added up from zero in the order of the bins, of weight times the bin's entry c b. -/
def kerFold (z : EReal) (c : Fin 33 → EReal) : EReal :=
  (List.finRange 33).foldl (fun acc b => acc + binWeight (lowW z + 16#32) (lowW z + 16#32 + 1#32)
      (Ideal.ofBits .f32 0x3F800000#32 - fracE z) (fracE z) (BitVec.ofNat 32 b.val) * c b)
    (Ideal.ofBits .f32 0x00000000#32)

/-- Adding up from a start value along a list gives the start value plus the list's sum. -/
private theorem foldl_add_eq {α : Type} (f : α → EReal) (l : List α) (a : EReal) :
    l.foldl (fun acc b => acc + f b) a = a + (l.map f).sum := by
  induction l generalizing a with
  | nil => simp
  | cons x xs ih => simp [ih, add_assoc]

/-- Choosing by an equality test of two words is choosing by their equality. -/
private theorem select_eq (x y : BitVec 32) (a b : EReal) :
    Scalar.select (IntOp.cmpi .eq x y) a b = if x = y then a else b := by
  unfold Scalar.select IntOp.cmpi
  by_cases h : x = y
  · subst h
    simp
  · have hb : (x == y) = false := beq_false_of_ne h
    simp [hb, h]

/-- Numbers below 2^32 are told apart by their 32-bit words. -/
private theorem ofNat_inj32 {n m : ℕ} (hn : n < 4294967296) (hm : m < 4294967296) :
    BitVec.ofNat 32 n = BitVec.ofNat 32 m ↔ n = m := by
  constructor
  · intro h
    have h' := congrArg BitVec.toNat h
    simp only [BitVec.toNat_ofNat] at h'
    omega
  · rintro rfl
    rfl

/-- The weight of bin b when the low bin is n and the high bin n + 1: u at n, v at n + 1, zero elsewhere. -/
private theorem binWeight_eq (n b : ℕ) (hn : n < 32) (hb : b < 33) (u v : EReal) :
    binWeight (BitVec.ofNat 32 n) (BitVec.ofNat 32 (n + 1)) u v (BitVec.ofNat 32 b)
      = if b = n then u else if b = n + 1 then v else 0 := by
  rw [binWeight, select_eq, select_eq, Ideal.ofBits_zero_f32]
  simp only [ofNat_inj32 (show n < 4294967296 by omega) (show b < 4294967296 by omega),
    ofNat_inj32 (show n + 1 < 4294967296 by omega) (show b < 4294967296 by omega)]
  by_cases h1 : n = b
  · subst h1
    simp
  · by_cases h2 : n + 1 = b
    · subst h2
      simp
    · have h1' : b ≠ n := fun h => h1 h.symm
      have h2' : b ≠ n + 1 := fun h => h2 h.symm
      simp [h1, h2, h1', h2']

/-- Only the low and the high bin have a nonzero weight: the walk is the blend. -/
theorem kerFold_eq (z : EReal) (c : Fin 33 → EReal) :
    kerFold z c = blend z (c ⟨nlo z, by have := nlo_lt z; omega⟩) (c ⟨nlo z + 1, by have := nlo_lt z; omega⟩) := by
  have hn := nlo_lt z
  have hfold : kerFold z c = ∑ b : Fin 33,
      (if b.val = nlo z then ((1 - phi z : ℝ) : EReal) else if b.val = nlo z + 1 then ((phi z : ℝ) : EReal) else 0) * c b := by
    rw [kerFold, lowW_add17, lowW_add16, fracE_eq, w_1, Ideal.ofBits_zero_f32, ← EReal.coe_sub]
    rw [foldl_add_eq (fun b : Fin 33 => binWeight (BitVec.ofNat 32 (nlo z)) (BitVec.ofNat 32 (nlo z + 1))
      ((1 - phi z : ℝ) : EReal) ((phi z : ℝ) : EReal) (BitVec.ofNat 32 b.val) * c b), zero_add, ← Fin.sum_univ_def]
    refine Finset.sum_congr rfl (fun b _ => ?_)
    rw [binWeight_eq _ _ hn b.isLt]
  rw [hfold]
  refine (Finset.sum_eq_add (⟨nlo z, by omega⟩ : Fin 33) (⟨nlo z + 1, by omega⟩ : Fin 33) ?_ ?_ ?_ ?_).trans ?_
  · exact fun h => absurd (show nlo z = nlo z + 1 from congrArg Fin.val h) (by omega)
  · intro b _ hb
    have hb1 : b.val ≠ nlo z := fun h => hb.1 (Fin.ext h)
    have hb2 : b.val ≠ nlo z + 1 := fun h => hb.2 (Fin.ext h)
    rw [if_neg hb1, if_neg hb2, zero_mul]
  · intro h
    exact absurd (Finset.mem_univ _) h
  · intro h
    exact absurd (Finset.mem_univ _) h
  · show (if nlo z = nlo z then _ else _) * _ + (if nlo z + 1 = nlo z then _ else if nlo z + 1 = nlo z + 1 then _ else _) * _ = _
    rw [if_pos rfl, if_neg (by omega), if_pos rfl, blend, mul_comm (c _) ((phi z : ℝ) : EReal),
      mul_comm (c _) ((1 - phi z : ℝ) : EReal), add_comm]

/-! ## The two looked-up rows -/

/-- The interpolation written with quotients by sixteen is the blend. -/
theorem ref_blend (z lo hi : EReal) :
    hi * (Ideal.ofBits .f32 0x41800000#32
        * (tclip z - Ideal.div (Ideal.liftRound Int.floor (scaled z)) (Ideal.ofBits .f32 0x41800000#32)))
      + lo * (Ideal.ofBits .f32 0x41800000#32
        * (Ideal.div (Ideal.liftRound Int.floor (scaled z + Ideal.ofBits .f32 0x3F800000#32)) (Ideal.ofBits .f32 0x41800000#32)
            - tclip z))
      = blend z lo hi := by
  have h16 : (16 : ℝ) ≠ 0 := by norm_num
  have e1 : (16 * (tau z - ((kfl z : ℤ) : ℝ) * (1 / 16)) : ℝ) = phi z := by
    unfold phi
    ring
  have e2 : (16 * (((kfl z + 1 : ℤ) : ℝ) * (1 / 16) - tau z) : ℝ) = 1 - phi z := by
    unfold phi
    push_cast
    ring
  rw [floor_scaled, floor_scaled_succ, w_16, Ideal.div_coe h16, Ideal.div_coe h16, tclip_eq, blend]
  simp only [← EReal.coe_mul, ← EReal.coe_sub]
  rw [e1, e2]

/-- A row number below zero counts from the table's end. -/
def wrapRow (r : BitVec 32) : BitVec 32 := Scalar.select (IntOp.cmpi .slt r 0#32) (r + 2112#32) r

/-- A number below 2^31 is its word's signed value. -/
private theorem toInt_ofNat_small (m : ℕ) (h : m < 2147483648) : (BitVec.ofNat 32 m).toInt = (m : ℤ) := by
  have hm : m % 2 ^ 32 = m := Nat.mod_eq_of_lt (by omega)
  rw [BitVec.toInt_eq_toNat_cond, BitVec.toNat_ofNat, hm, if_pos (by omega)]

/-- So its word is not negative and the wrap leaves it alone. -/
private theorem wrapRow_small (m : ℕ) (h : m < 2147483648) : wrapRow (BitVec.ofNat 32 m) = BitVec.ofNat 32 m := by
  have hs : (BitVec.ofNat 32 m).slt 0#32 = false := by
    rw [BitVec.slt_eq_decide, toInt_ofNat_small m h]
    simp
  unfold wrapRow Scalar.select IntOp.cmpi
  simp [hs]

/-- Row 64 n + a for a bin n ≤ 32 and a column group a < 64 lies inside the table of 2112 rows. -/
private theorem row_small (n a : ℕ) (hn : n ≤ 32) (ha : a < 64) :
    min (wrapRow (64#32 * BitVec.ofNat 32 n + BitVec.ofNat 32 a)).toInt.toNat (2112 - 1) = 64 * n + a := by
  have e : 64#32 * BitVec.ofNat 32 n + BitVec.ofNat 32 a = BitVec.ofNat 32 (64 * n + a) := by
    rw [BitVec.ofNat_add, BitVec.ofNat_mul]
  rw [e, wrapRow_small _ (by omega), toInt_ofNat_small _ (by omega), Int.toNat_natCast]
  omega

/-- The low row's number, for column group a: 64 (k + 16) + a, never negative and inside the table. -/
theorem row_lo (z : EReal) (a : ℕ) (ha : a < 64) :
    min (wrapRow (64#32 * (lowW z + 16#32) + BitVec.ofNat 32 a)).toInt.toNat (2112 - 1) = 64 * nlo z + a := by
  have hn := nlo_lt z
  rw [lowW_add16, row_small _ _ (by omega) ha]

/-- The high row's number: 64 (k + 17) + a. -/
theorem row_hi (z : EReal) (a : ℕ) (ha : a < 64) :
    min (wrapRow (64#32 * (highW z + 16#32) + BitVec.ofNat 32 a)).toInt.toNat (2112 - 1) = 64 * (nlo z + 1) + a := by
  have hn := nlo_lt z
  rw [highW_add16, row_small _ _ (by omega) ha]

/-! ## One entry of the result -/

/-- Entry (·, a, e) of the result for the squashed input z: the blend of rows 64 nlo + a and 64 (nlo + 1) + a of the
    table, at column e. -/
def Gel (z : EReal) (T : (⟨2, ![2112, 32]⟩ : Shape).Idx → EReal) (a : Fin 64) (e : Fin 32) : EReal :=
  blend z (T (ix2 (⟨64 * nlo z + a.val, by have := nlo_lt z; have := a.isLt; omega⟩ : Fin 2112) e))
    (T (ix2 (⟨64 * (nlo z + 1) + a.val, by have := nlo_lt z; have := a.isLt; omega⟩ : Fin 2112) e))

/-! ## The two spellings of the normalised input -/

/-- Scale and shift folded into one multiply-add agree with subtract, scale, scale, shift — over the reals. -/
theorem norm_eq (x w b mu r : ℝ) :
    (x : EReal) * ((w : EReal) * (r : EReal)) + ((b : EReal) - (mu : EReal) * ((w : EReal) * (r : EReal)))
      = (((x : EReal) - (mu : EReal)) * (r : EReal)) * (w : EReal) + (b : EReal) := by
  simp only [← EReal.coe_mul, ← EReal.coe_sub, ← EReal.coe_add]
  congr 1
  ring

end Cert.BinEmbed

end
-- ==== Proof.KerPay.lean ====
/-
  What one grid step of the kernel leaves in its output block, read at one entry.

  The block has 512 rows and 2048 = 64 · 32 columns; column 32 a + e belongs to action a and embedding coordinate e. The
  entry at row p is the walk over the 33 bins for the input x[p, a] · scale[a] + shift[a], the bins' entries being the
  table's entries (b, a, e).
-/
import proofs.«154688_j61907658605068_1_alg».proof.Proof.Gen.KernelIdeal.Frame
import proofs.«154688_j61907658605068_1_alg».proof.Proof.BinScalar
import Idealize.ShloMosaic.Lib.ValueIdx
import Idealize.ShloMosaic.Lib.ValueLayout
import Idealize.ShloMosaic.Lib.Pipeline.Value

noncomputable section

namespace Cert.KerPay

open Cert.KernelIdeal Cert.KernelIdeal.Gen Cert.BinEmbed
open Idealize.ShloMosaic Idealize.ShloMosaic.TcCoe Idealize.SL.Sem Idealize.ShloMosaic.ValueIdx

/-! ## The layout operations of the body, read at an entry given by its coordinates -/

variable {α : Type}

private theorem hz2 : (![0, 0] : Fin 2 → Nat) = fun _ => 0 := funext fun a => by fin_cases a <;> rfl
private theorem hz1 : (![0] : Fin 1 → Nat) = fun _ => 0 := funext fun a => by fin_cases a <;> rfl

/-- The block [512, 64, 32] viewed as [512, 2048]: column 32 a + e of row p is entry (p, a, e). -/
private theorem cast_out_apply (v : S512x64x32.Idx → α) (h : S512x64x32.ShapeCasts S512x2048)
    (p : Fin 512) (a : Fin 64) (e : Fin 32) (hk : 32 * a.val + e.val < 2048) :
    shapeCast S512x2048 v h (ix2 p (⟨32 * a.val + e.val, hk⟩ : Fin 2048)) = v (ix3 p a e) :=
  shapeCast_apply v h _ _ (by
    rw [Shape.rowMajor_val_three, Shape.rowMajor_val_two]
    show (p.val * 64 + a.val) * 32 + e.val = p.val * 2048 + (32 * a.val + e.val)
    omega)

/-- A [512, 64] array given a trailing unit axis reads, at (p, a, u), the entry (p, a). -/
private theorem cast_w_apply (v : S512x64.Idx → α) (h : S512x64.ShapeCasts S512x64x1)
    (p : Fin 512) (a : Fin 64) (u : Fin 1) :
    shapeCast S512x64x1 v h (ix3 p a u) = v (ix2 p a) :=
  shapeCast_apply v h _ _ (by
    have hu : u.val = 0 := by omega
    rw [Shape.rowMajor_val_three, Shape.rowMajor_val_two]
    show p.val * 64 + a.val = (p.val * 64 + a.val) * 1 + u.val
    omega)

/-- A [512, 64, 1] array spread along the last axis reads, at (p, a, e), its entry (p, a, 0). -/
private theorem bcast_w_apply (v : S512x64x1.Idx → α) (h : S512x64x1.Broadcasts S512x64x32)
    (p : Fin 512) (a : Fin 64) (e : Fin 32) :
    broadcastTo S512x64x32 v h (ix3 p a e) = v (ix3 p a (0 : Fin 1)) := by
  refine broadcastTo_apply v h (ix3 p a e) (ix3 p a (0 : Fin 1)) fun ax => ?_
  match ax with
  | ⟨0, _⟩ => rfl
  | ⟨1, _⟩ => rfl
  | ⟨2, _⟩ => rfl

/-- A [1, 64, 32] array spread along the first axis reads, at (p, a, e), its entry (0, a, e). -/
private theorem bcast_row_apply (v : S1x64x32.Idx → α) (h : S1x64x32.Broadcasts S512x64x32)
    (p : Fin 512) (a : Fin 64) (e : Fin 32) :
    broadcastTo S512x64x32 v h (ix3 p a e) = v (ix3 (0 : Fin 1) a e) := by
  refine broadcastTo_apply v h (ix3 p a e) (ix3 (0 : Fin 1) a e) fun ax => ?_
  match ax with
  | ⟨0, _⟩ => rfl
  | ⟨1, _⟩ => rfl
  | ⟨2, _⟩ => rfl

/-- The row-b block [1, 64, 32] of the table places its entry (0, a, e) at the table's entry (b, a, e). -/
private theorem idx_row (b : ℕ)
    (inb : ∀ ax, (![b, 0, 0] : Fin 3 → Nat) ax + S1x64x32.size ax ≤ S33x64x32.size ax)
    (u : Fin 1) (a : Fin 64) (e : Fin 32) :
    (Rect.unit (s := S33x64x32) ![b, 0, 0] S1x64x32.size inb).idx (ix3 u a e)
      = ix3 (⟨b, by have := inb 0; simp at this; omega⟩ : Fin 33) a e := by
  funext ax
  apply Fin.ext
  have hu : u.val = 0 := by omega
  match ax with
  | ⟨0, _⟩ => show b + 1 * u.val = b; omega
  | ⟨1, _⟩ => show 0 + 1 * a.val = a.val; omega
  | ⟨2, _⟩ => show 0 + 1 * e.val = e.val; omega

/-! ## Operations that act entry by entry, read at an entry -/

section Pointwise
variable {s : Shape} {φ : FTy} {w : Nat}

private theorem tanh_apply (x : FVec Ideal s φ) (i : s.Idx) : tanh x i = Ideal.tanh (x i) := rfl
private theorem floor_apply (x : FVec Ideal s φ) (i : s.Idx) : floor x i = Ideal.liftRound Int.floor (x i) := rfl
private theorem fptosi_apply (x : FVec Ideal s φ) (i : s.Idx) : fptosi w x i = Ideal.fptosi w (x i) := rfl
private theorem sitofpI_apply (x : IVec s w) (i : s.Idx) :
    (sitofp φ x : FVec Ideal s φ) i = ((((x i).toInt : ℤ) : ℝ) : EReal) := rfl
private theorem addi_apply (x y : IVec s w) (i : s.Idx) : addi x y i = x i + y i := rfl
private theorem cmpi_apply (q : CmpIPredicate) (x y : IVec s w) (i : s.Idx) : cmpi q x y i = IntOp.cmpi q (x i) (y i) := rfl

end Pointwise

/-! ## The quantities every bin reads, at an entry (p, a) -/

section Prologue
variable (x0 : S512x64.Idx → EReal) (x1 x2 : S64.Idx → EReal) (p : Fin 512) (a : Fin 64)

private theorem pay2_at :
    k0_pay2 (F := Ideal) x0 x1 x2 (ix2 p a) = scaled (x0 (ix2 p a) * x1 (ix1 a) + x2 (ix1 a)) := by
  simp only [k0_pay2, shapeCast_self, mulf_apply, addf_apply, minimumf_apply, maximumf_apply, tanh_apply,
    broadcast_apply, broadcastTo_1b_ab_apply, shapeCast_a_1a_apply, Ideal.ofBits_def]
  rfl

private theorem pay3_at :
    k0_pay3 (F := Ideal) x0 x1 x2 (ix2 p a) = lowW (x0 (ix2 p a) * x1 (ix1 a) + x2 (ix1 a)) := by
  simp only [k0_pay3, fptosi_apply, floor_apply, pay2_at]
  rfl

private theorem pay4_at :
    k0_pay4 (F := Ideal) x0 x1 x2 (ix2 p a) = fracE (x0 (ix2 p a) * x1 (ix1 a) + x2 (ix1 a)) := by
  simp only [k0_pay4, subf_apply, sitofpI_apply, pay2_at, pay3_at]
  rfl

private theorem pay5_at :
    k0_pay5 (F := Ideal) x0 x1 x2 (ix2 p a) = lowW (x0 (ix2 p a) * x1 (ix1 a) + x2 (ix1 a)) + 16#32 := by
  simp only [k0_pay5, addi_apply, broadcast_apply, pay3_at]

private theorem pay6_at :
    k0_pay6 (F := Ideal) x0 x1 x2 (ix2 p a) = lowW (x0 (ix2 p a) * x1 (ix1 a) + x2 (ix1 a)) + 16#32 + 1#32 := by
  simp only [k0_pay6, addi_apply, broadcast_apply, pay5_at]

end Prologue

/-- The output block of one grid step at row p and column 32 a + e. -/
theorem out_at (x0 : S512x64.Idx → EReal) (x1 x2 : S64.Idx → EReal) (x3 : S33x64x32.Idx → EReal)
    (p : Fin 512) (a : Fin 64) (e : Fin 32) :
    out0_4 (F := Ideal) x0 x1 x2 x3 (ix2 p (⟨32 * a.val + e.val, by have := a.isLt; have := e.isLt; omega⟩ : Fin 2048))
      = kerFold (x0 (ix2 p a) * x1 (ix1 a) + x2 (ix1 a)) (fun b => x3 (ix3 b a e)) := by
  -- the block is stored whole, and the three small inputs are loaded whole
  unfold out0_4
  rw [View.canon_unit_zero hz2]
  simp only [View.ld_unit_zero (S := S512x64) hz2, View.ld_unit_zero (S := S64) hz1]
  -- every bin's step written out over the three quantities of the entry (p, a): fraction, low bin, high bin
  simp only [
    k0_pay1, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44]
  -- read at (p, a, e): a left-nested sum of 33 products weight(b) · table(b, a, e), starting from zero
  simp only [cast_out_apply, addf_apply, mulf_apply, subf_apply, select_apply, cmpi_apply, broadcast_apply,
    bcast_w_apply, bcast_row_apply, cast_w_apply, shapeCast_ab_1ab_apply, shapeCast_1ab_ab_apply,
    View.ld, idx_row, pay4_at, pay5_at, pay6_at, Ideal.ofBits_def]
  -- the walk over the list of the 33 bins is the same nested sum
  unfold kerFold binWeight
  rw [show List.finRange 33 = [0, 1, 2, 3, 4, 5, 6, 7, 8, 9, 10, 11, 12, 13, 14, 15, 16, 17, 18, 19, 20, 21, 22, 23, 24, 25,
    26, 27, 28, 29, 30, 31, 32] from by decide]
  simp only [List.foldl_cons, List.foldl_nil]
  rfl

end Cert.KerPay

end
-- ==== Proof.KerVal.lean ====
/-
  The kernel's program around its one grid: what the grid finds in its operand arrays, and what the program returns.

  Before the grid the program computes, per column a of x, the mean and the reciprocal standard deviation — by the very
  operations the reference uses, so they are named here by the reference's own stages — and from them scale[a] = w[a] · rstd[a]
  and shift[a] = b[a] - mean[a] · scale[a]; it views the table of 2112 rows as 33 bins of 64 rows. After the grid it views
  the 16384 × 2048 result as 16384 × 64 × 32.
-/
import proofs.«154688_j61907658605068_1_alg».proof.Proof.Gen.KernelIdeal.Frame
import proofs.«154688_j61907658605068_1_alg».proof.Proof.Gen.ReferenceIdeal.Read
import proofs.«154688_j61907658605068_1_alg».proof.Proof.BinScalar
import proofs.«154688_j61907658605068_1_alg».proof.Proof.KerPay
import Idealize.ShloMosaic.Lib.Pipeline.Value
import Idealize.ShloMosaic.Lib.ValueIdx
import Idealize.ShloMosaic.Lib.StableHlo.Run

noncomputable section

namespace Cert.KerVal

open Cert.KernelIdeal Cert.KernelIdeal.Gen Cert.BinEmbed
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The column means of x, as the reference's stage of that name computes them. -/
abbrev meanOf (x : S16384x64.Idx → EReal) : S64.Idx → EReal := Cert.ReferenceIdeal.Read.val_main_v2 (F := Ideal) x
/-- The columns' reciprocal standard deviations, likewise. -/
abbrev rstdOf (x : S16384x64.Idx → EReal) : S64.Idx → EReal := Cert.ReferenceIdeal.Read.val_main_v15 (F := Ideal) x

/-- The scale the grid finds: weight times reciprocal standard deviation. -/
theorem scale_eq (c : Dev nD) :
    @Eq (FVec Ideal S64 .f32) (V m c main_v13)
      (mulf (m ((c : Thread nD τ).loc main_arg1)) (rstdOf (m ((c : Thread nD τ).loc main_arg0)))) := by
  show StableHlo.after hostOps0 (fun b => m (c, b)) (Proc.devRef .tc main_v13) = _
  after_results
  rfl

/-- The shift the grid finds: bias minus mean times scale. -/
theorem shift_eq (c : Dev nD) :
    @Eq (FVec Ideal S64 .f32) (V m c main_v15)
      (subf (m ((c : Thread nD τ).loc main_arg2))
          (mulf (meanOf (m ((c : Thread nD τ).loc main_arg0)))
            (mulf (m ((c : Thread nD τ).loc main_arg1)) (rstdOf (m ((c : Thread nD τ).loc main_arg0)))))) := by
  show StableHlo.after hostOps0 (fun b => m (c, b)) (Proc.devRef .tc main_v15) = _
  after_results_simp
  rfl

/-- The table the grid finds: the 2112 rows viewed as 33 bins of 64. -/
theorem table_eq (c : Dev nD) :
    (V m c main_v16 : S33x64x32.Idx → EReal)
      = shapeCast S33x64x32 (m ((c : Thread nD τ).loc main_arg3)) Facts₀.shapeCasts_S2112x32_S33x64x32 := by
  show StableHlo.after hostOps0 (fun b => m (c, b)) (Proc.devRef .tc main_v16) = _
  after_results
  rfl

end Cert.KerVal

end
-- ==== Proof.KerBlk.lean ====
/-
  The grid's steps and what each reads.

  The grid has 32 steps; step t reads rows 512 t … 512 t + 511 of x (all 64 columns) and the whole scale, the whole shift
  and the whole table of 33 bins. Read at an entry, each input block is the operand array at the entry the block's
  position gives.
-/
import proofs.«154688_j61907658605068_1_alg».proof.Proof.Gen.KernelIdeal.Frame
import Idealize.ShloMosaic.Lib.Pipeline.Value
import Idealize.ShloMosaic.Lib.ValueIdx
import Idealize.ShloMosaic.Lib.StableHlo.Run

noncomputable section

namespace Cert.KerArr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grid's steps are 0, …, 31. -/
theorem step_lt (t : Fin cfg0.N) : t.val < 32 := by
  have h := t.isLt
  have hN : cfg0.N = 32 := N_0
  omega

/-- The printed block-index maps, decided over the grid: x's and the result's blocks move down with the step, the other
    three operands stay at block zero. -/
theorem idx_facts : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The operand arrays as the grid finds them, at their literal types. -/
abbrev xArr (c : Dev nD) : S16384x64.Idx → EReal := V m c main_arg0
abbrev scArr (c : Dev nD) : S64.Idx → EReal := V m c main_v13
abbrev shArr (c : Dev nD) : S64.Idx → EReal := V m c main_v15
abbrev tbArr (c : Dev nD) : S33x64x32.Idx → EReal := V m c main_v16

/-- The four input blocks of step t, at their literal types. -/
abbrev xBlk (c : Dev nD) (t : Fin cfg0.N) : S512x64.Idx → EReal := iblk m c 0 t
abbrev scBlk (c : Dev nD) (t : Fin cfg0.N) : S64.Idx → EReal := iblk m c 1 t
abbrev shBlk (c : Dev nD) (t : Fin cfg0.N) : S64.Idx → EReal := iblk m c 2 t
abbrev tbBlk (c : Dev nD) (t : Fin cfg0.N) : S33x64x32.Idx → EReal := iblk m c 3 t

/-- Step t's block of x is rows 512 t … 512 t + 511. -/
theorem xBlk_at (c : Dev nD) (t : Fin cfg0.N) (p : Fin 512) (a : Fin 64) :
    xBlk m c t (ix2 p a) = xArr m c (ix2 (⟨512 * t.val + p.val, by have := step_lt t; have := p.isLt; omega⟩ : Fin 16384) a) := by
  obtain ⟨e0, e1, -⟩ := idx_facts t
  show V m c main_arg0 (((cfg0.win 0).blk t).view.emb (ix2 p a)) = V m c main_arg0 _
  congr 1
  funext ax
  apply Fin.ext
  match ax with
  | ⟨0, _⟩ => show win0_0.index t (0 : Fin 2) * 512 + 1 * p.val = 512 * t.val + p.val; rw [e0]; omega
  | ⟨1, _⟩ => show win0_0.index t (1 : Fin 2) * 64 + 1 * a.val = a.val; rw [e1]; omega

/-- The scale's block is the whole scale. -/
theorem scBlk_at (c : Dev nD) (t : Fin cfg0.N) (a : Fin 64) : scBlk m c t (ix1 a) = scArr m c (ix1 a) := by
  obtain ⟨-, -, e2, -⟩ := idx_facts t
  show V m c main_v13 (((cfg0.win 1).blk t).view.emb (ix1 a)) = V m c main_v13 _
  congr 1
  funext ax
  apply Fin.ext
  match ax with
  | ⟨0, _⟩ => show win0_1.index t (0 : Fin 1) * 64 + 1 * a.val = a.val; rw [e2]; omega

/-- The shift's block is the whole shift. -/
theorem shBlk_at (c : Dev nD) (t : Fin cfg0.N) (a : Fin 64) : shBlk m c t (ix1 a) = shArr m c (ix1 a) := by
  obtain ⟨-, -, -, e3, -⟩ := idx_facts t
  show V m c main_v15 (((cfg0.win 2).blk t).view.emb (ix1 a)) = V m c main_v15 _
  congr 1
  funext ax
  apply Fin.ext
  match ax with
  | ⟨0, _⟩ => show win0_2.index t (0 : Fin 1) * 64 + 1 * a.val = a.val; rw [e3]; omega

/-- The table's block is the whole table. -/
theorem tbBlk_at (c : Dev nD) (t : Fin cfg0.N) (b : Fin 33) (a : Fin 64) (e : Fin 32) :
    tbBlk m c t (ix3 b a e) = tbArr m c (ix3 b a e) := by
  obtain ⟨-, -, -, -, e4, e5, e6, -⟩ := idx_facts t
  show V m c main_v16 (((cfg0.win 3).blk t).view.emb (ix3 b a e)) = V m c main_v16 _
  congr 1
  funext ax
  apply Fin.ext
  match ax with
  | ⟨0, _⟩ => show win0_3.index t (0 : Fin 3) * 33 + 1 * b.val = b.val; rw [e4]; omega
  | ⟨1, _⟩ => show win0_3.index t (1 : Fin 3) * 64 + 1 * a.val = a.val; rw [e5]; omega
  | ⟨2, _⟩ => show win0_3.index t (2 : Fin 3) * 32 + 1 * e.val = e.val; rw [e6]; omega

end Cert.KerArr

end
-- ==== Proof.KerArr.lean ====
/-
  From the grid's blocks to the kernel program's result.

  Step t writes rows 512 t … 512 t + 511 of the 16384 × 2048 result. So row n of the result is written by step
  n / 512, as row n mod 512 of its block, from row n of x: entry (n, 32 a + e) is the walk over the bins for
  x[n, a] · scale[a] + shift[a] with the bins' entries table[b, a, e]. The program's last line views that array as
  16384 × 64 × 32, entry (n, a, e) being entry (n, 32 a + e).
-/
import proofs.«154688_j61907658605068_1_alg».proof.Proof.Gen.KernelIdeal.Frame
import proofs.«154688_j61907658605068_1_alg».proof.Proof.BinScalar
import proofs.«154688_j61907658605068_1_alg».proof.Proof.KerPay
import proofs.«154688_j61907658605068_1_alg».proof.Proof.KerBlk
import Idealize.ShloMosaic.Lib.Pipeline.Value
import Idealize.ShloMosaic.Lib.ValueIdx
import Idealize.ShloMosaic.Lib.StableHlo.Run

noncomputable section

namespace Cert.KerArr

open Cert.KernelIdeal Cert.KernelIdeal.Gen Cert.BinEmbed
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The result array as one function of the operand arrays -/

/-- One entry of the result: the walk over the bins for x[n, a] · scale[a] + shift[a], over the table's entries (·, a, e). -/
def cell (X : S16384x64.Idx → EReal) (Sc Sh : S64.Idx → EReal) (Tb : S33x64x32.Idx → EReal)
    (n : Fin 16384) (a : Fin 64) (e : Fin 32) : EReal :=
  kerFold (X (ix2 n a) * Sc (ix1 a) + Sh (ix1 a)) (fun b => Tb (ix3 b a e))

/-- The 16384 × 2048 array of those entries: column j belongs to a = j / 32 and e = j mod 32. -/
def wide (X : S16384x64.Idx → EReal) (Sc Sh : S64.Idx → EReal) (Tb : S33x64x32.Idx → EReal) : S16384x2048.Idx → EReal :=
  fun i => cell X Sc Sh Tb ⟨(i 0).val, idx2_lt0 i⟩ ⟨(i 1).val / 32, by have := idx2_lt1 i; omega⟩
    ⟨(i 1).val % 32, Nat.mod_lt _ (by decide)⟩

/-- At column 32 a + e it is the entry for a and e. -/
theorem wide_at (X : S16384x64.Idx → EReal) (Sc Sh : S64.Idx → EReal) (Tb : S33x64x32.Idx → EReal)
    (n : Fin 16384) (a : Fin 64) (e : Fin 32) :
    wide X Sc Sh Tb (ix2 n (⟨32 * a.val + e.val, by have := a.isLt; have := e.isLt; omega⟩ : Fin 2048)) = cell X Sc Sh Tb n a e := by
  have ha : (32 * a.val + e.val) / 32 = a.val := by have := e.isLt; omega
  have he : (32 * a.val + e.val) % 32 = e.val := by have := e.isLt; omega
  exact congr (congr (congrArg (cell X Sc Sh Tb) (Fin.ext rfl)) (Fin.ext ha)) (Fin.ext he)

/-- An entry of step t's output block sits 512 t rows down in the array. -/
theorem emb4 (t : Fin cfg0.N) (p : Fin 512) (q : Fin 2048) :
    ((cfg0.win 4).blk t).view.emb (ix2 p q)
      = (ix2 (⟨512 * t.val + p.val, by have := step_lt t; have := p.isLt; omega⟩ : Fin 16384) q : S16384x2048.Idx) := by
  obtain ⟨-, -, -, -, -, -, -, e7, e8⟩ := idx_facts t
  funext ax
  apply Fin.ext
  match ax with
  | ⟨0, _⟩ => show win0_4.index t (0 : Fin 2) * 512 + 1 * p.val = 512 * t.val + p.val; rw [e7]; omega
  | ⟨1, _⟩ => show win0_4.index t (1 : Fin 2) * 2048 + 1 * q.val = q.val; rw [e8]; omega

/-- Step t's block of any 16384 × 2048 array, read at an entry of the block, is the array at the entry's place. -/
theorem read4 (G : S16384x2048.Idx → EReal) (t : Fin cfg0.N) (y : S512x2048.Idx) :
    ((cfg0.win 4).blk t).view.read (Elt Ideal) G y = G (((cfg0.win 4).blk t).view.emb y) := rfl

/-- WHAT STEP t WRITES BACK is its block of that array. -/
theorem flushed_eq (c : Dev nD) (t : Fin cfg0.N) :
    (dats m 0 c).flushed 4 t
      = ((cfg0.win 4).blk t).view.read (Elt Ideal) (wide (xArr m c) (scArr m c) (shArr m c) (tbArr m c)) := by
  show (cfg0.win 4).cut (grid0.coords t) ((dats m 0 c).after 4 t) = _
  rw [after0_4]
  refine funext fun (y : S512x2048.Idx) => ?_
  obtain ⟨p, q, rfl⟩ : ∃ (p : Fin 512) (q : Fin 2048), y = ix2 p q := ⟨y 0, y 1, eq_ix2 y⟩
  obtain ⟨a, e, rfl⟩ : ∃ (a : Fin 64) (e : Fin 32), q = ⟨32 * a.val + e.val, by have := a.isLt; have := e.isLt; omega⟩ :=
    ⟨⟨q.val / 32, by have := q.isLt; omega⟩, ⟨q.val % 32, Nat.mod_lt _ (by decide)⟩, Fin.ext (by show q.val = 32 * (q.val / 32) + q.val % 32; omega)⟩
  have hx : (cfg0.win 4).xinj (grid0.coords t) (ix2 p (⟨32 * a.val + e.val, by have := a.isLt; have := e.isLt; omega⟩ : Fin 2048))
      = ix2 p (⟨32 * a.val + e.val, by have := a.isLt; have := e.isLt; omega⟩ : Fin 2048) :=
    funext fun ax => Fin.ext (by match ax with | ⟨0, _⟩ => rfl | ⟨1, _⟩ => rfl)
  show out0_4 (F := Ideal) (xBlk m c t) (scBlk m c t) (shBlk m c t) (tbBlk m c t)
      ((cfg0.win 4).xinj (grid0.coords t) (ix2 p (⟨32 * a.val + e.val, by have := a.isLt; have := e.isLt; omega⟩ : Fin 2048))) = _
  rw [hx, Cert.KerPay.out_at, read4, emb4 t p _, wide_at]
  unfold cell
  rw [xBlk_at, scBlk_at, shBlk_at]
  exact congrArg (kerFold _) (funext fun b => tbBlk_at m c t b a e)

/-- An index of the array is in step t's block iff each coordinate is in the block's range on its axis. -/
theorem mem_blk (t : Fin cfg0.N) (i : S16384x2048.Idx) :
    i ∈ ((cfg0.win 4).blk t).view.set
      ↔ ∀ a : Fin 2, win0_4.index t a * S512x2048.size a ≤ (i a).val ∧ (i a).val < win0_4.index t a * S512x2048.size a + S512x2048.size a := by
  show i ∈ ((View.whole main_v17).slice (win0_4.rect t)).set ↔ _
  rw [View.set_slice_whole, Rect.mem_set_unit]
  exact Iff.rfl

/-- Every entry of the array is written: row n by step n / 512. -/
theorem cover (i : S16384x2048.Idx) :
    ∃ t : Fin cfg0.N, (cfg0.win 4).flush t = true ∧ i ∈ ((cfg0.win 4).blk t).view.set := by
  have h0 : (i 0).val < 16384 := idx2_lt0 i
  have h1 : (i 1).val < 2048 := idx2_lt1 i
  have hN : cfg0.N = 32 := N_0
  have ht : (i 0).val / 512 < cfg0.N := by rw [hN]; omega
  obtain ⟨-, -, -, -, -, -, -, e7, e8⟩ := idx_facts ⟨(i 0).val / 512, ht⟩
  refine ⟨⟨(i 0).val / 512, ht⟩, flush0_4 _, ?_⟩
  rw [mem_blk]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    rw [e7]; show (i 0).val / 512 * 512 ≤ (i 0).val ∧ (i 0).val < (i 0).val / 512 * 512 + 512; omega
  | ⟨1, _⟩ =>
    show win0_4.index ⟨(i 0).val / 512, ht⟩ (1 : Fin 2) * 2048 ≤ (i 1).val
      ∧ (i 1).val < win0_4.index ⟨(i 0).val / 512, ht⟩ (1 : Fin 2) * 2048 + 2048
    rw [e8]; omega

/-- THE ARRAY after the grid is that function of the operand arrays. -/
theorem final (c : Dev nD) :
    (dats m 0 c).arrAt 4 cfg0.N = wide (xArr m c) (scArr m c) (shArr m c) (tbArr m c) :=
  (dats m 0 c).arrAt_eq_of_cover 4 (wide (xArr m c) (scArr m c) (shArr m c) (tbArr m c))
    (fun t _ => flushed_eq m c t) cover

/-! ## The program's last line and its result -/

/-- The 16384 × 2048 array viewed as 16384 × 64 × 32: entry (n, a, e) is entry (n, 32 a + e). -/
theorem view3_at (v : S16384x2048.Idx → EReal) (h : S16384x2048.ShapeCasts S16384x64x32) (n : Fin 16384) (a : Fin 64) (e : Fin 32) :
    shapeCast S16384x64x32 v h (ix3 n a e)
      = v (ix2 n (⟨32 * a.val + e.val, by have := a.isLt; have := e.isLt; omega⟩ : Fin 2048)) :=
  shapeCast_apply v h _ _ (by
    rw [Shape.rowMajor_val_two, Shape.rowMajor_val_three]
    show n.val * 2048 + (32 * a.val + e.val) = (n.val * 64 + a.val) * 32 + e.val
    omega)

/-- What the program returns: the result array viewed in three axes. -/
theorem result_eq (c : Dev nD) :
    Pipeline.afterTail₀ cfgs (dats m) 0 (V0 m) [hostOps1] c main_v18
      = shapeCast S16384x64x32 (wide (xArr m c) (scArr m c) (shArr m c) (tbArr m c)) Facts₀.shapeCasts_S16384x2048_S16384x64x32 := by
  unfold Pipeline.afterTail₀
  show StableHlo.after hostOps1 _ (Proc.devRef .tc main_v18) = _
  after_results
  rw [show Pipeline.withArrays (cfgs 0).spec c (V0 m c) (fun w => (dats m 0 c).arrAt w (cfgs 0).N) (Proc.devRef .tc main_v17)
      = wide (xArr m c) (scArr m c) (shArr m c) (tbArr m c) from
    (Pipeline.withArrays_arr spec0 launch0.win.arr_inj c _ _ 4).trans (final m c)]
  rfl

end Cert.KerArr

end
-- ==== Proof.KerRes.lean ====
/-
  The kernel program's result, entry by entry, and its run.

  Entry (n, a, e) of what the program returns is the walk over the bins for x[n, a] · scale[a] + shift[a]; with
  scale = w · rstd and shift = b - mean · scale as the program's first lines compute them, and the table's bin b, row a
  being row 64 b + a of the table as given, the walk collapses to the blend of the two neighbouring rows.
-/
import proofs.«154688_j61907658605068_1_alg».proof.Proof.Gen.KernelIdeal.Frame
import proofs.«154688_j61907658605068_1_alg».proof.Proof.BinScalar
import proofs.«154688_j61907658605068_1_alg».proof.Proof.KerVal
import proofs.«154688_j61907658605068_1_alg».proof.Proof.KerArr
import Idealize.ShloMosaic.Lib.Pipeline.Value
import Idealize.ShloMosaic.Lib.ValueIdx

noncomputable section

namespace Cert.KerRes

open Cert.KernelIdeal Cert.KernelIdeal.Gen Cert.BinEmbed Cert.KerVal Cert.KerArr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The normalised input at (n, a) as the kernel's program spells it: one multiply-add with the folded scale and shift. -/
def zKer (x : S16384x64.Idx → EReal) (w b : S64.Idx → EReal) (n : Fin 16384) (a : Fin 64) : EReal :=
  x (ix2 n a) * (w (ix1 a) * rstdOf x (ix1 a)) + (b (ix1 a) - meanOf x (ix1 a) * (w (ix1 a) * rstdOf x (ix1 a)))

/-- The table viewed as 33 bins of 64 rows: bin b, row a is row 64 b + a. -/
theorem bins_at (T : S2112x32.Idx → EReal) (h : S2112x32.ShapeCasts S33x64x32) (b : Fin 33) (a : Fin 64) (e : Fin 32) :
    shapeCast S33x64x32 T h (ix3 b a e)
      = T (ix2 (⟨64 * b.val + a.val, by have := b.isLt; have := a.isLt; omega⟩ : Fin 2112) e) :=
  shapeCast_apply T h _ _ (by
    rw [Shape.rowMajor_val_two, Shape.rowMajor_val_three]
    show (64 * b.val + a.val) * 32 + e.val = (b.val * 64 + a.val) * 32 + e.val
    omega)

/-- Entry (n, a, e) of the program's result is the blend for the kernel's normalised input. -/
theorem result_at (c : Dev nD) (n : Fin 16384) (a : Fin 64) (e : Fin 32) :
    shapeCast S16384x64x32 (wide (xArr m c) (scArr m c) (shArr m c) (tbArr m c)) Facts₀.shapeCasts_S16384x2048_S16384x64x32 (ix3 n a e)
      = Gel (zKer (m ((c : Thread nD τ).loc main_arg0)) (m ((c : Thread nD τ).loc main_arg1)) (m ((c : Thread nD τ).loc main_arg2)) n a)
          (m ((c : Thread nD τ).loc main_arg3)) a e := by
  rw [view3_at, wide_at]
  unfold cell
  have hX : xArr m c = m ((c : Thread nD τ).loc main_arg0) := V_main_arg0 m c
  have hS : scArr m c
      = (mulf (m ((c : Thread nD τ).loc main_arg1)) (rstdOf (m ((c : Thread nD τ).loc main_arg0))) : FVec Ideal S64 .f32) := scale_eq m c
  have hH : shArr m c
      = (subf (m ((c : Thread nD τ).loc main_arg2))
          (mulf (meanOf (m ((c : Thread nD τ).loc main_arg0)))
            (mulf (m ((c : Thread nD τ).loc main_arg1)) (rstdOf (m ((c : Thread nD τ).loc main_arg0))))) : FVec Ideal S64 .f32) := shift_eq m c
  have hT : tbArr m c = shapeCast S33x64x32 (m ((c : Thread nD τ).loc main_arg3)) Facts₀.shapeCasts_S2112x32_S33x64x32 := table_eq m c
  rw [hX, hS, hH, hT]
  show kerFold (zKer (m ((c : Thread nD τ).loc main_arg0)) (m ((c : Thread nD τ).loc main_arg1)) (m ((c : Thread nD τ).loc main_arg2)) n a)
      (fun b => shapeCast S33x64x32 (m ((c : Thread nD τ).loc main_arg3)) Facts₀.shapeCasts_S2112x32_S33x64x32 (ix3 b a e)) = _
  rw [kerFold_eq]
  unfold Gel
  exact congr (congrArg (blend _) (bins_at _ _ _ a e)) (bins_at _ _ _ a e)

/-- THE RUN: every weakly fair execution of the kernel's program terminates with the result at the three-axis view of the
    array of walks, and the four arguments as they were. -/
theorem run : θ_run defs (onTc (τ := τ) (main (F := Ideal))) ⟨m, fun _ => 0, ρ⟩ fun r => ∀ c : Dev nD,
      r.2.mem ((c.tc : Thread nD τ).loc main_v18)
        = shapeCast S16384x64x32 (wide (xArr m c) (scArr m c) (shArr m c) (tbArr m c)) Facts₀.shapeCasts_S16384x2048_S16384x64x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v18 (Pipeline.mem_restRefs_of main_v18 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KerRes

end
-- ==== Proof.RefAt.lean ====
/-
  The reference's result, read at one entry.

  At entry (n, a, e) the reference normalises x[n, a] with the batch mean and the reciprocal standard deviation of column a,
  squashes and clips it, and blends rows 64 (k + 16) + a and 64 (k + 17) + a of the table at column e, k the floor of
  sixteen times the clipped value. This file reads the program's stages one at a time down to that entry and hands the
  scalar part to the mathematics of the blend.
-/
import proofs.«154688_j61907658605068_1_alg».proof.Proof.Gen.ReferenceIdeal.Read
import proofs.«154688_j61907658605068_1_alg».proof.Proof.BinScalar
import Idealize.ShloMosaic.Lib.ValueIdx

noncomputable section

namespace Cert.RefAt

open Cert.ReferenceIdeal Cert.ReferenceIdeal.Gen Cert.ReferenceIdeal.Read Cert.BinEmbed
open Idealize.ShloMosaic Idealize.ShloMosaic.TcCoe Idealize.SL.Sem Idealize.ShloMosaic.StableHlo Idealize.ShloMosaic.ValueIdx

/-- The normalised input at (n, a) as the reference spells it: subtract the column's mean, scale by the reciprocal standard
    deviation, scale by the weight, add the bias. The mean and the reciprocal standard deviation are the reference's own stages. -/
def zRef (x : S16384x64.Idx → EReal) (w b : S64.Idx → EReal) (n : Fin 16384) (a : Fin 64) : EReal :=
  ((x (ix2 n a) - val_main_v2 (F := Ideal) x (ix1 a)) * val_main_v15 (F := Ideal) x (ix1 a)) * w (ix1 a) + b (ix1 a)

/-- The gather of one table row: at entry (n, a, e) it reads the table at the row the start index names, read as a
    signed integer and clamped into the table, and at column e. The row axis is the one the start index addresses and the
    slice collapses; the column axis starts at zero and is walked by the result's last coordinate. -/
private theorem gather_at {w : Nat} (T : S2112x32.Idx → EReal) (idx : IVec S16384x64x1 w)
    (n : Fin 16384) (a : Fin 64) (e : Fin 32) (r : Nat) (hr : r < 2112)
    (h : min (idx (ix3 n a (0 : Fin 1))).toInt.toNat (2112 - 1) = r) :
    Host.gather gather_S2112x32_S16384x64x1_S16384x64x32_2_0_n_n_0_2_132 T idx (ix3 n a e)
      = T (ix2 (⟨r, hr⟩ : Fin 2112) e) := by
  unfold Host.gather
  congr 1
  funext ax
  refine Fin.ext ?_
  match ax with
  | ⟨0, h0⟩ =>
    show gather_S2112x32_S16384x64x1_S16384x64x32_2_0_n_n_0_2_132.start (ix3 n a e) idx ⟨0, h0⟩ + gather_S2112x32_S16384x64x1_S16384x64x32_2_0_n_n_0_2_132.batchCoord (ix3 n a e) ⟨0, h0⟩
        + gather_S2112x32_S16384x64x1_S16384x64x32_2_0_n_n_0_2_132.offCoord (ix3 n a e) ⟨0, h0⟩ = r
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    have hmem : (⟨0, h0⟩ : Fin S2112x32.rank) ∈ gather_S2112x32_S16384x64x1_S16384x64x32_2_0_n_n_0_2_132.startIndexMap := List.mem_singleton.mpr rfl
    unfold GatherDims.start
    rw [dif_pos hmem]
    have hsi : gather_S2112x32_S16384x64x1_S16384x64x32_2_0_n_n_0_2_132.siIdx (ix3 n a e) ⟨List.idxOf (⟨0, h0⟩ : Fin S2112x32.rank) gather_S2112x32_S16384x64x1_S16384x64x32_2_0_n_n_0_2_132.startIndexMap,
        List.idxOf_lt_length_iff.2 hmem⟩ = ix3 n a (0 : Fin 1) := by
      funext b; refine Fin.ext ?_
      match b with
      | ⟨0, _⟩ => rfl
      | ⟨1, _⟩ => rfl
      | ⟨2, _⟩ => rfl
    rw [hsi]
    exact h
  | ⟨1, h1⟩ =>
    show gather_S2112x32_S16384x64x1_S16384x64x32_2_0_n_n_0_2_132.start (ix3 n a e) idx ⟨1, h1⟩ + gather_S2112x32_S16384x64x1_S16384x64x32_2_0_n_n_0_2_132.batchCoord (ix3 n a e) ⟨1, h1⟩
        + gather_S2112x32_S16384x64x1_S16384x64x32_2_0_n_n_0_2_132.offCoord (ix3 n a e) ⟨1, h1⟩ = e.val
    rw [GatherDims.batchCoord_eq_zero _ _ _ List.not_mem_nil]
    have hs : gather_S2112x32_S16384x64x1_S16384x64x32_2_0_n_n_0_2_132.start (ix3 n a e) idx ⟨1, h1⟩ = 0 := by
      have hne : (⟨1, h1⟩ : Fin S2112x32.rank) ∉ gather_S2112x32_S16384x64x1_S16384x64x32_2_0_n_n_0_2_132.startIndexMap := fun hm =>
        absurd (congrArg Fin.val (List.mem_singleton.mp hm)) (fun h' : (1 : Nat) = 0 => Nat.one_ne_zero h')
      unfold GatherDims.start
      rw [dif_neg hne]
    have ho : gather_S2112x32_S16384x64x1_S16384x64x32_2_0_n_n_0_2_132.offCoord (ix3 n a e) ⟨1, h1⟩ = e.val := by
      have hk : (⟨1, h1⟩ : Fin S2112x32.rank) ∈ gather_S2112x32_S16384x64x1_S16384x64x32_2_0_n_n_0_2_132.sKept :=
        (GatherDims.mem_sKept _ _).mpr ⟨fun hm => absurd (congrArg Fin.val (List.mem_singleton.mp hm)) (fun h' : (1 : Nat) = 0 => Nat.one_ne_zero h'),
          List.not_mem_nil⟩
      unfold GatherDims.offCoord
      rw [dif_pos hk]
      rfl
    rw [hs, ho]; omega

/-- The reference's result at entry (n, a, e) is the blend for the normalised input. -/
theorem ref_at (x : S16384x64.Idx → EReal) (w b : S64.Idx → EReal) (T : S2112x32.Idx → EReal)
    (n : Fin 16384) (a : Fin 64) (e : Fin 32) :
    val_main_v82 (F := Ideal) x w b T (ix3 n a e) = Gel (zRef x w b n a) T a e := by
  -- the column's statistics and the weight and bias, broadcast along the batch axis, read at column a
  have hmean : val_main_v11 (F := Ideal) x (ix2 n a) = val_main_v2 (F := Ideal) x (ix1 a) := by
    rw [val_main_v11_apply, val_main_v10_apply]; exact congrArg _ (funext fun d => Fin.ext (by match d with | ⟨0, _⟩ => rfl))
  have hrstd : val_main_v17 (F := Ideal) x (ix2 n a) = val_main_v15 (F := Ideal) x (ix1 a) := by
    rw [val_main_v17_apply, val_main_v16_apply]; exact congrArg _ (funext fun d => Fin.ext (by match d with | ⟨0, _⟩ => rfl))
  have hw : val_main_v20 (F := Ideal) w (ix2 n a) = w (ix1 a) := by
    rw [val_main_v20_apply, val_main_v19_apply]; exact congrArg _ (funext fun d => Fin.ext (by match d with | ⟨0, _⟩ => rfl))
  have hb : val_main_v23 (F := Ideal) b (ix2 n a) = b (ix1 a) := by
    rw [val_main_v23_apply, val_main_v22_apply]; exact congrArg _ (funext fun d => Fin.ext (by match d with | ⟨0, _⟩ => rfl))
  -- the normalised input
  have hz : val_main_v24 (F := Ideal) x w b (ix2 n a) = zRef x w b n a := by
    rw [val_main_v24_apply, val_main_v21_apply, val_main_v18_apply, val_main_v12_apply, hmean, hrstd, hw, hb]; rfl
  -- squashed and clipped
  have hlo : val_main_call0_v1 (F := Ideal) (ix2 n a) = Ideal.ofBits .f32 0xBF7FFF58#32 := by rw [val_main_call0_v1_apply]; rfl
  have hhi : val_main_call0_v4 (F := Ideal) (ix2 n a) = Ideal.ofBits .f32 0x3F7FFF58#32 := by rw [val_main_call0_v4_apply]; rfl
  have hclip : val_main_v26 (F := Ideal) x w b (ix2 n a) = tclip (zRef x w b n a) := by
    rw [val_main_v26_apply, val_main_call0_v2_apply, val_main_v25_apply, hz, hlo, hhi]; rfl
  -- sixteen times the clipped value, its floor and the floor of its successor
  have h29 : val_main_v29 (F := Ideal) (ix2 n a) = Ideal.ofBits .f32 0x41800000#32 := by rw [val_main_v29_apply]; rfl
  have h41 : val_main_v41 (F := Ideal) (ix2 n a) = Ideal.ofBits .f32 0x41800000#32 := by rw [val_main_v41_apply]; rfl
  have h43 : val_main_v43 (F := Ideal) (ix2 n a) = Ideal.ofBits .f32 0x3F800000#32 := by rw [val_main_v43_apply]; rfl
  have h39 : val_main_v39 (F := Ideal) (ix2 n a) = Ideal.ofBits .f32 0x41800000#32 := by rw [val_main_v39_apply]; rfl
  have h53 : val_main_v53 (F := Ideal) (ix2 n a) = Ideal.ofBits .f32 0x41800000#32 := by rw [val_main_v53_apply]; rfl
  have hs1 : val_main_v30 (F := Ideal) x w b (ix2 n a) = scaled (zRef x w b n a) := by rw [val_main_v30_apply, hclip, h29]; rfl
  have hs2 : val_main_v42 (F := Ideal) x w b (ix2 n a) = scaled (zRef x w b n a) := by rw [val_main_v42_apply, hclip, h41]; rfl
  have hf1 : val_main_v31 (F := Ideal) x w b (ix2 n a) = Ideal.liftRound Int.floor (scaled (zRef x w b n a)) := by rw [val_main_v31_apply, hs1]; rfl
  have hf2 : val_main_v45 (F := Ideal) x w b (ix2 n a) = Ideal.liftRound Int.floor (scaled (zRef x w b n a) + Ideal.ofBits .f32 0x3F800000#32) := by
    rw [val_main_v45_apply, val_main_v44_apply, hs2, h43]; rfl
  have hL : val_main_v32 (F := Ideal) x w b (ix2 n a) = lowW (zRef x w b n a) := by rw [val_main_v32_apply, hf1]; rfl
  have hH : val_main_v46 (F := Ideal) x w b (ix2 n a) = highW (zRef x w b n a) := by rw [val_main_v46_apply, hf2]; rfl
  -- the two row numbers
  have hio1 : val_main_v37 (F := Ideal) (ix2 n a) = BitVec.ofNat 32 a.val := by
    rw [val_main_v37_apply, val_main_v28_apply, val_main_v27_apply]
  have hio2 : val_main_v51 (F := Ideal) (ix2 n a) = BitVec.ofNat 32 a.val := by
    rw [val_main_v51_apply, val_main_v28_apply, val_main_v27_apply]
  have h33 : val_main_v33 (F := Ideal) (ix2 n a) = 16#32 := by rw [val_main_v33_apply]; rfl
  have h35 : val_main_v35 (F := Ideal) (ix2 n a) = 64#32 := by rw [val_main_v35_apply]; rfl
  have h47 : val_main_v47 (F := Ideal) (ix2 n a) = 16#32 := by rw [val_main_v47_apply]; rfl
  have h49 : val_main_v49 (F := Ideal) (ix2 n a) = 64#32 := by rw [val_main_v49_apply]; rfl
  have h55 : val_main_v55 (F := Ideal) (ix2 n a) = 0#32 := by rw [val_main_v55_apply]; rfl
  have h57 : val_main_v57 (F := Ideal) (ix2 n a) = 2112#32 := by rw [val_main_v57_apply]; rfl
  have h62 : val_main_v62 (F := Ideal) (ix2 n a) = 0#32 := by rw [val_main_v62_apply]; rfl
  have h64 : val_main_v64 (F := Ideal) (ix2 n a) = 2112#32 := by rw [val_main_v64_apply]; rfl
  have hr1 : val_main_v38 (F := Ideal) x w b (ix2 n a) = (64#32 * (lowW (zRef x w b n a) + 16#32) + BitVec.ofNat 32 a.val) := by
    rw [val_main_v38_apply, val_main_v36_apply, val_main_v34_apply, hL, h33, h35, hio1]; rfl
  have hr2 : val_main_v52 (F := Ideal) x w b (ix2 n a) = (64#32 * (highW (zRef x w b n a) + 16#32) + BitVec.ofNat 32 a.val) := by
    rw [val_main_v52_apply, val_main_v50_apply, val_main_v48_apply, hH, h47, h49, hio2]; rfl
  have hw1 : val_main_v59 (F := Ideal) x w b (ix2 n a) = wrapRow (64#32 * (lowW (zRef x w b n a) + 16#32) + BitVec.ofNat 32 a.val) := by
    rw [val_main_v59_apply, val_main_v56_apply, val_main_v58_apply, hr1, h55, h57]; rfl
  have hw2 : val_main_v66 (F := Ideal) x w b (ix2 n a) = wrapRow (64#32 * (highW (zRef x w b n a) + 16#32) + BitVec.ofNat 32 a.val) := by
    rw [val_main_v66_apply, val_main_v63_apply, val_main_v65_apply, hr2, h62, h64]; rfl
  have hi1 : val_main_v60 (F := Ideal) x w b (ix3 n a (0 : Fin 1)) = wrapRow (64#32 * (lowW (zRef x w b n a) + 16#32) + BitVec.ofNat 32 a.val) := by
    rw [val_main_v60_apply, show idx_main_v60 (ix3 n a (0 : Fin 1)) = (ix2 n a) from (funext fun d => Fin.ext (by match d with | ⟨0, _⟩ => rfl | ⟨1, _⟩ => rfl))]; exact hw1
  have hi2 : val_main_v67 (F := Ideal) x w b (ix3 n a (0 : Fin 1)) = wrapRow (64#32 * (highW (zRef x w b n a) + 16#32) + BitVec.ofNat 32 a.val) := by
    rw [val_main_v67_apply, show idx_main_v67 (ix3 n a (0 : Fin 1)) = (ix2 n a) from (funext fun d => Fin.ext (by match d with | ⟨0, _⟩ => rfl | ⟨1, _⟩ => rfl))]; exact hw2
  -- the two interpolation coefficients
  have hd1 : val_main_v40 (F := Ideal) x w b (ix2 n a) = Ideal.div (Ideal.liftRound Int.floor (scaled (zRef x w b n a))) (Ideal.ofBits .f32 0x41800000#32) := by rw [val_main_v40_apply, hf1, h39]; rfl
  have hd2 : val_main_v54 (F := Ideal) x w b (ix2 n a) = Ideal.div (Ideal.liftRound Int.floor (scaled (zRef x w b n a) + Ideal.ofBits .f32 0x3F800000#32)) (Ideal.ofBits .f32 0x41800000#32) := by rw [val_main_v54_apply, hf2, h53]; rfl
  have hc69 : val_main_v69 (F := Ideal) x w b (ix3 n a (0 : Fin 1)) = tclip (zRef x w b n a) := by
    rw [val_main_v69_apply, show idx_main_v69 (ix3 n a (0 : Fin 1)) = (ix2 n a) from (funext fun d => Fin.ext (by match d with | ⟨0, _⟩ => rfl | ⟨1, _⟩ => rfl))]; exact hclip
  have hc70 : val_main_v70 (F := Ideal) x w b (ix3 n a (0 : Fin 1)) = Ideal.div (Ideal.liftRound Int.floor (scaled (zRef x w b n a))) (Ideal.ofBits .f32 0x41800000#32) := by
    rw [val_main_v70_apply, show idx_main_v70 (ix3 n a (0 : Fin 1)) = (ix2 n a) from (funext fun d => Fin.ext (by match d with | ⟨0, _⟩ => rfl | ⟨1, _⟩ => rfl))]; exact hd1
  have hc76 : val_main_v76 (F := Ideal) x w b (ix3 n a (0 : Fin 1)) = Ideal.div (Ideal.liftRound Int.floor (scaled (zRef x w b n a) + Ideal.ofBits .f32 0x3F800000#32)) (Ideal.ofBits .f32 0x41800000#32) := by
    rw [val_main_v76_apply, show idx_main_v76 (ix3 n a (0 : Fin 1)) = (ix2 n a) from (funext fun d => Fin.ext (by match d with | ⟨0, _⟩ => rfl | ⟨1, _⟩ => rfl))]; exact hd2
  have h72 : val_main_v72 (F := Ideal) (ix3 n a (0 : Fin 1)) = Ideal.ofBits .f32 0x41800000#32 := by rw [val_main_v72_apply]; rfl
  have h78 : val_main_v78 (F := Ideal) (ix3 n a (0 : Fin 1)) = Ideal.ofBits .f32 0x41800000#32 := by rw [val_main_v78_apply]; rfl
  have hk1 : val_main_v74 (F := Ideal) x w b (ix3 n a e) = Ideal.ofBits .f32 0x41800000#32 * (tclip (zRef x w b n a) - Ideal.div (Ideal.liftRound Int.floor (scaled (zRef x w b n a))) (Ideal.ofBits .f32 0x41800000#32)) := by
    rw [val_main_v74_apply, show idx_main_v74 (ix3 n a e) = (ix3 n a (0 : Fin 1)) from (funext fun d => Fin.ext (by match d with | ⟨0, _⟩ => rfl | ⟨1, _⟩ => rfl | ⟨2, _⟩ => rfl)),
      val_main_v73_apply, val_main_v71_apply, h72, hc69, hc70]; rfl
  have hk2 : val_main_v80 (F := Ideal) x w b (ix3 n a e) = Ideal.ofBits .f32 0x41800000#32 * (Ideal.div (Ideal.liftRound Int.floor (scaled (zRef x w b n a) + Ideal.ofBits .f32 0x3F800000#32)) (Ideal.ofBits .f32 0x41800000#32) - tclip (zRef x w b n a)) := by
    rw [val_main_v80_apply, show idx_main_v80 (ix3 n a e) = (ix3 n a (0 : Fin 1)) from (funext fun d => Fin.ext (by match d with | ⟨0, _⟩ => rfl | ⟨1, _⟩ => rfl | ⟨2, _⟩ => rfl)),
      val_main_v79_apply, val_main_v77_apply, h78, hc76, hc69]; rfl
  -- the result: the high row times its coefficient plus the low row times its coefficient
  have hlt := nlo_lt (zRef x w b n a)
  have hA := a.isLt
  rw [val_main_v82_apply, val_main_v75_apply, val_main_v81_apply, hk1, hk2]
  unfold val_main_v68 val_main_v61
  rw [gather_at T (val_main_v67 (F := Ideal) x w b) n a e (64 * (nlo (zRef x w b n a) + 1) + a.val) (by omega)
        (by rw [hi2]; exact row_hi (zRef x w b n a) a.val a.isLt),
    gather_at T (val_main_v60 (F := Ideal) x w b) n a e (64 * nlo (zRef x w b n a) + a.val) (by omega)
        (by rw [hi1]; exact row_lo (zRef x w b n a) a.val a.isLt)]
  exact ref_blend (zRef x w b n a) _ _

end Cert.RefAt

end
-- ==== Proof.Bridge.lean ====
/-
  The two programs return one array.

  Entry (n, a, e) of the common result is the blend, for the normalised input at (n, a), of rows 64 nlo + a and
  64 (nlo + 1) + a of the table at column e. The reference computes exactly that. The kernel's program spells the
  normalised input as one multiply-add, x · (w · rstd) + (b - mean · (w · rstd)), where the reference subtracts the mean,
  scales twice and adds the bias: the two agree by the distributive law, which on the extended reals needs x, w, b, the
  mean and the reciprocal standard deviation to be real numbers — what the finiteness of the inputs gives.
-/
import proofs.«154688_j61907658605068_1_alg».proof.Proof.Gen.ReferenceIdeal.Read
import proofs.«154688_j61907658605068_1_alg».proof.Proof.BinScalar
import proofs.«154688_j61907658605068_1_alg».proof.Proof.RefAt
import proofs.«154688_j61907658605068_1_alg».proof.Proof.KerRes
import proofs.«154688_j61907658605068_1_alg».proof.Proof.Finite
import Idealize.ShloMosaic.Lib.ValueIdx

noncomputable section

namespace Cert.Bridge

open Idealize.ShloMosaic Idealize.ShloMosaic.TcCoe Idealize.SL.Sem Idealize.ShloMosaic.ValueIdx Idealize.ShloMosaic.FiniteOps
open Cert.BinEmbed

/-- THE RESULT both programs return, as one function of the four arguments. -/
def result (x : (⟨2, ![16384, 64]⟩ : Shape).Idx → EReal) (w b : (⟨1, ![64]⟩ : Shape).Idx → EReal)
    (T : (⟨2, ![2112, 32]⟩ : Shape).Idx → EReal) : (⟨3, ![16384, 64, 32]⟩ : Shape).Idx → EReal :=
  fun i => Gel (Cert.RefAt.zRef x w b (i 0) (i 1)) T (i 1) (i 2)

/-- The reference's last stage is that function. -/
theorem ref_eq (x : (⟨2, ![16384, 64]⟩ : Shape).Idx → EReal) (w b : (⟨1, ![64]⟩ : Shape).Idx → EReal)
    (T : (⟨2, ![2112, 32]⟩ : Shape).Idx → EReal) :
    Cert.ReferenceIdeal.Read.val_main_v82 (F := Ideal) x w b T = result x w b T := by
  funext i
  obtain ⟨n, a, e, rfl⟩ : ∃ (n : Fin 16384) (a : Fin 64) (e : Fin 32), i = ix3 n a e := ⟨i 0, i 1, i 2, eq_ix3 i⟩
  exact Cert.RefAt.ref_at x w b T n a e

/-- For real x, w and b the kernel's one multiply-add is the reference's normalisation. -/
theorem zKer_eq_zRef (x : (⟨2, ![16384, 64]⟩ : Shape).Idx → EReal) (w b : (⟨1, ![64]⟩ : Shape).Idx → EReal)
    (hx : AllReal x) (hw : AllReal w) (hb : AllReal b) (n : Fin 16384) (a : Fin 64) :
    Cert.KerRes.zKer x w b n a = Cert.RefAt.zRef x w b n a := by
  obtain ⟨xr, hxr⟩ := hx (ix2 n a)
  obtain ⟨wr, hwr⟩ := hw (ix1 a)
  obtain ⟨br, hbr⟩ := hb (ix1 a)
  obtain ⟨mu, hmu⟩ := Cert.Finite.mean_real x hx (ix1 a)
  obtain ⟨r, -, hr⟩ := Cert.Finite.rstd_pos x hx (ix1 a)
  unfold Cert.KerRes.zKer Cert.RefAt.zRef Cert.KerVal.meanOf Cert.KerVal.rstdOf
  rw [hxr, hwr, hbr, hmu, hr]
  exact norm_eq xr wr br mu r

section Kernel

open Cert.KernelIdeal Cert.KernelIdeal.Gen Cert.KerArr

/-- For real x, w and b the kernel program's result is that function too. -/
theorem ker_eq (m : (ℓ : Loc nD τ sig) → Buf (Elt Ideal) ℓ) (c : Dev nD)
    (hx : AllReal (m ((c.tc : Thread nD τ).loc main_arg0))) (hw : AllReal (m ((c.tc : Thread nD τ).loc main_arg1)))
    (hb : AllReal (m ((c.tc : Thread nD τ).loc main_arg2))) :
    shapeCast S16384x64x32 (wide (xArr m c) (scArr m c) (shArr m c) (tbArr m c)) Facts₀.shapeCasts_S16384x2048_S16384x64x32
      = result (m ((c.tc : Thread nD τ).loc main_arg0)) (m ((c.tc : Thread nD τ).loc main_arg1))
          (m ((c.tc : Thread nD τ).loc main_arg2)) (m ((c.tc : Thread nD τ).loc main_arg3)) := by
  funext i
  obtain ⟨n, a, e, rfl⟩ : ∃ (n : Fin 16384) (a : Fin 64) (e : Fin 32), i = ix3 n a e := ⟨i 0, i 1, i 2, eq_ix3 i⟩
  rw [Cert.KerRes.result_at]
  show Gel (Cert.KerRes.zKer _ _ _ n a) _ a e = Gel (Cert.RefAt.zRef _ _ _ n a) _ a e
  rw [zKer_eq_zRef _ _ _ hx hw hb]

end Kernel

end Cert.Bridge

end
-- ==== Proof.lean ====
/-
  A binned embedding lookup: the kernel and its reference return the same array over the extended reals.

  Both programs normalise x[n, a] with the column's batch mean and reciprocal standard deviation, the weight and the bias,
  squash it by tanh, clip it into [-c, c] with c = 1 - 168 / 2^24, and scale it by sixteen; with k the floor and φ the
  fractional part, entry (n, a, e) of the result is φ · T[64 (k + 17) + a, e] + (1 - φ) · T[64 (k + 16) + a, e].
  The reference gathers the two rows by their numbers. The kernel, on a grid of 32 steps of 512 rows each, walks over all
  33 bins and adds weight times entry, the weight being 1 - φ at the low bin, φ at the high one and zero elsewhere; the clip
  keeps the low bin among 0, …, 31, so exactly those two summands survive. The kernel's program folds the normalisation into one
  multiply-add; that is the reference's by the distributive law, which holds on the extended reals because finite inputs are
  real numbers and so are the column means and reciprocal standard deviations (the variance is a nonnegative real and the
  stabilising constant is positive). The table's entries may be anything: only commutativity and 0 · x = 0 are used on them.

  The frames of the two kernel programs are the generated ones; the reference's frame is its generated run with the
  result dropped. The idealisation rewrote nothing, so there is nothing to preserve.
-/
import proofs.«154688_j61907658605068_1_alg».proof.Defs
import proofs.«154688_j61907658605068_1_alg».proof.Proof.Gen.Kernel
import proofs.«154688_j61907658605068_1_alg».proof.Proof.Gen.Kernel.Skeleton
import proofs.«154688_j61907658605068_1_alg».proof.Proof.Gen.Kernel.Launch
import proofs.«154688_j61907658605068_1_alg».proof.Proof.Gen.Kernel.Points
import proofs.«154688_j61907658605068_1_alg».proof.Proof.Gen.Kernel.Frame
import proofs.«154688_j61907658605068_1_alg».proof.Proof.Gen.KernelIdeal
import proofs.«154688_j61907658605068_1_alg».proof.Proof.Gen.KernelIdeal.Skeleton
import proofs.«154688_j61907658605068_1_alg».proof.Proof.Gen.KernelIdeal.Launch
import proofs.«154688_j61907658605068_1_alg».proof.Proof.Gen.KernelIdeal.Points
import proofs.«154688_j61907658605068_1_alg».proof.Proof.Gen.KernelIdeal.Frame
import proofs.«154688_j61907658605068_1_alg».proof.Proof.Gen.ReferenceIdeal
import proofs.«154688_j61907658605068_1_alg».proof.Proof.Gen.Pre_finite_inputs
import proofs.«154688_j61907658605068_1_alg».proof.Proof.Gen.ReferenceIdeal.Run
import proofs.«154688_j61907658605068_1_alg».proof.Proof.Gen.ReferenceIdeal.Read
import proofs.«154688_j61907658605068_1_alg».proof.Proof.Finite
import proofs.«154688_j61907658605068_1_alg».proof.Proof.KerRes
import proofs.«154688_j61907658605068_1_alg».proof.Proof.Bridge
import Idealize.ShloMosaic.Adequacy
import Idealize.ShloMosaic.Init

noncomputable section

namespace Cert.Proof

open Idealize.ShloMosaic Idealize.SL.Sem

/-- The kernel's program at the word level runs, and leaves its arguments alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the four arguments, finite on the kernel's side, both programs end with the one result. -/
theorem algebraic : Cert.algebraic_KernelIdeal_ReferenceIdeal := by
  intro m ρ m' ρ' hpre hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KerRes.run m ρ)
    obtain ⟨hx, hw, hb⟩ := Cert.Finite.allReal_of_pre _ _ _ _ (hpre c)
    exact Cert.Bridge.ker_eq m c hx hw hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2]
    exact Cert.Bridge.ref_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
